-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x32 : Shape := ⟨2, ![2097152, 32]⟩
abbrev S64x32 : Shape := ⟨2, ![64, 32]⟩
abbrev S64 : Shape := ⟨1, ![64]⟩
abbrev S64x64 : Shape := ⟨2, ![64, 64]⟩
abbrev S4x64 : Shape := ⟨2, ![4, 64]⟩
abbrev S4 : Shape := ⟨1, ![4]⟩
abbrev S_ : Shape := ⟨0, ![]⟩

class Facts : Prop where
  bcast_S_S2097152x32 : S_.BroadcastsInDim S2097152x32 (![] : Fin 0 → Fin S2097152x32.rank)
  reducesTo_S2097152x32_S_d0_1 : S2097152x32.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S4x64 : S_.BroadcastsInDim S4x64 (![] : Fin 0 → Fin S4x64.rank)
  reducesTo_S4x64_S_d0_1 : S4x64.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg4 : FVec F S64 .f32) (main_arg5 : FVec F S4x64 .f32) (main_arg6 : FVec F S4 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S4x64 .f32 := Host.absf main_arg5
  let main_cst_8 : FVec F S_ .f32 := constant S_ .f32 0x7F800000#32
  let main_v25 : FVec F S4x64 .f32 := broadcastInDim S4x64 ![] bcast_S_S4x64 main_cst_8
  let main_v26 : IVec S4x64 1 := cmpf .olt main_v24 main_v25
  let main_c_9 : IVec S_ 1 := constantI S_ 1 1#1
  let main_v27 : IVec S_ 1 := (fun x v => Host.reduce IntOp.andi x v reducesTo_S4x64_S_d0_1 h_S_) main_v26 main_c_9
  let main_v28 : IVec S_ 1 := andi main_v23 main_v27
  let main_v29 : FVec F S4 .f32 := Host.absf main_arg6
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  main_v33

def fn {F : FTy → Type} [FloatOps F] (main_arg0 : FVec F S2097152x32 .f32) (main_arg1 : FVec F S64x32 .f32) (main_arg2 : FVec F S64 .f32) (main_arg3 : FVec F S64x64 .f32) (main_arg4 : FVec F S64 .f32) (main_arg5 : FVec F S4x64 .f32) (main_arg6 : FVec F S4 .f32) : IVec S_ 1 :=
  let main_v0 : FVec F S2097152x32 .f32 := Host.absf main_arg0
  let main_cst : FVec F S_ .f32 := constant S_ .f32 0x7F800000#32
  let main_v1 : FVec F S2097152x32 .f32 := broadcastInDim S2097152x32 ![] bcast_S_S2097152x32 main_cst
  let main_v2 : IVec S2097152x32 1 := cmpf .olt main_v0 main_v1
  let main_c : IVec S_ 1 := constantI S_ 1 1#1
  let main_v3 : IVec S_ 1 := (fun x v => Host.reduce IntOp.andi x v reducesTo_S2097152x32_S_d0_1 h_S_) main_v2 main_c
  let main_v4 : FVec F S64x32 .f32 := Host.absf main_arg1
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S2097152x32 : Shape := ⟨2, ![2097152, 32]⟩
abbrev S64x32 : Shape := ⟨2, ![64, 32]⟩
abbrev S64 : Shape := ⟨1, ![64]⟩
abbrev S64x64 : Shape := ⟨2, ![64, 64]⟩
abbrev S4x64 : Shape := ⟨2, ![4, 64]⟩
abbrev S4 : Shape := ⟨1, ![4]⟩
abbrev S524288x128 : Shape := ⟨2, ![524288, 128]⟩
abbrev S32x64 : Shape := ⟨2, ![32, 64]⟩
abbrev S_ : Shape := ⟨0, ![]⟩
abbrev S32x256 : Shape := ⟨2, ![32, 256]⟩
abbrev S128x256 : Shape := ⟨2, ![128, 256]⟩
abbrev S64x256 : Shape := ⟨2, ![64, 256]⟩
abbrev S256x256 : Shape := ⟨2, ![256, 256]⟩
abbrev S64x4 : Shape := ⟨2, ![64, 4]⟩
abbrev S64x16 : Shape := ⟨2, ![64, 16]⟩
abbrev S256x16 : Shape := ⟨2, ![256, 16]⟩
abbrev S1x64 : Shape := ⟨2, ![1, 64]⟩
abbrev S256 : Shape := ⟨1, ![256]⟩
abbrev S1x256 : Shape := ⟨2, ![1, 256]⟩
abbrev S1x4 : Shape := ⟨2, ![1, 4]⟩
abbrev S4x4 : Shape := ⟨2, ![4, 4]⟩
abbrev S16 : Shape := ⟨1, ![16]⟩
abbrev S1x16 : Shape := ⟨2, ![1, 16]⟩
abbrev S524288x16 : Shape := ⟨2, ![524288, 16]⟩
abbrev S4096x128 : Shape := ⟨2, ![4096, 128]⟩
abbrev S4096x16 : Shape := ⟨2, ![4096, 16]⟩
abbrev S4096x256 : Shape := ⟨2, ![4096, 256]⟩
abbrev S2097152x4 : Shape := ⟨2, ![2097152, 4]⟩

abbrev nBuf : Space → Nat
  | .hbm => 49
  | .vmem => 10
  | .smem => 0
  | _ => 0

abbrev bufTy : (tb : Table) → Fin (tcTables nBuf tb) → BufTy
  | .hbm, ⟨0, _⟩ => ⟨S2097152x32, .f32⟩
  | .hbm, ⟨1, _⟩ => ⟨S64x32, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S4x64, .f32⟩
  | .hbm, ⟨6, _⟩ => ⟨S4, .f32⟩
  | .hbm, ⟨7, _⟩ => ⟨S524288x128, .f32⟩
  | .hbm, ⟨8, _⟩ => ⟨S32x64, .f32⟩
  | .hbm, ⟨9, _⟩ => ⟨S_, .f32⟩
  | .hbm, ⟨10, _⟩ => ⟨S32x64, .f32⟩
  | .hbm, ⟨11, _⟩ => ⟨S32x256, .f32⟩
  | .hbm, ⟨12, _⟩ => ⟨S32x256, .f32⟩
  | .hbm, ⟨13, _⟩ => ⟨S32x256, .f32⟩
  | .hbm, ⟨14, _⟩ => ⟨S32x256, .f32⟩
  | .hbm, ⟨15, _⟩ => ⟨S128x256, .f32⟩
  | .hbm, ⟨16, _⟩ => ⟨S128x256, .bf16⟩
  | .hbm, ⟨17, _⟩ => ⟨S64x64, .f32⟩
  | .hbm, ⟨18, _⟩ => ⟨S_, .f32⟩
  | .hbm, ⟨19, _⟩ => ⟨S64x64, .f32⟩
  | .hbm, ⟨20, _⟩ => ⟨S64x256, .f32⟩
  | .hbm, ⟨21, _⟩ => ⟨S64x256, .f32⟩
  | .hbm, ⟨22, _⟩ => ⟨S64x256, .f32⟩
  | .hbm, ⟨23, _⟩ => ⟨S64x256, .f32⟩
  | .hbm, ⟨24, _⟩ => ⟨S256x256, .f32⟩
  | .hbm, ⟨25, _⟩ => ⟨S256x256, .bf16⟩
  | .hbm, ⟨26, _⟩ => ⟨S64x4, .f32⟩
  | .hbm, ⟨27, _⟩ => ⟨S_, .f32⟩
  | .hbm, ⟨28, _⟩ => ⟨S64x4, .f32⟩
  | .hbm, ⟨29, _⟩ => ⟨S64x16, .f32⟩
  | .hbm, ⟨30, _⟩ => ⟨S64x16, .f32⟩
  | .hbm, ⟨31, _⟩ => ⟨S64x16, .f32⟩
  | .hbm, ⟨32, _⟩ => ⟨S64x16, .f32⟩
  | .hbm, ⟨33, _⟩ => ⟨S256x16, .f32⟩
  | .hbm, ⟨34, _⟩ => ⟨S256x16, .bf16⟩
  | .hbm, ⟨35, _⟩ => ⟨S1x64, .f32⟩
  | .hbm, ⟨36, _⟩ => ⟨S4x64, .f32⟩
  | .hbm, ⟨37, _⟩ => ⟨S256, .f32⟩
  | .hbm, ⟨38, _⟩ => ⟨S1x256, .f32⟩
  | .hbm, ⟨39, _⟩ => ⟨S1x64, .f32⟩
  | .hbm, ⟨40, _⟩ => ⟨S4x64, .f32⟩
  | .hbm, ⟨41, _⟩ => ⟨S256, .f32⟩
  | .hbm, ⟨42, _⟩ => ⟨S1x256, .f32⟩
  | .hbm, ⟨43, _⟩ => ⟨S1x4, .f32⟩
  | .hbm, ⟨44, _⟩ => ⟨S4x4, .f32⟩
  | .hbm, ⟨45, _⟩ => ⟨S16, .f32⟩
  | .hbm, ⟨46, _⟩ => ⟨S1x16, .f32⟩
  | .hbm, ⟨47, _⟩ => ⟨S524288x16, .f32⟩
  | .hbm, ⟨48, _⟩ => ⟨S2097152x4, .f32⟩
  | .local _ .vmem, ⟨0, _⟩ => ⟨S4096x128, .f32⟩
  | .local _ .vmem, ⟨1, _⟩ => ⟨S4096x128, .f32⟩
  | .local _ .vmem, ⟨2, _⟩ => ⟨S128x256, .bf16⟩
  | .local _ .vmem, ⟨3, _⟩ => ⟨S1x256, .f32⟩
  | .local _ .vmem, ⟨4, _⟩ => ⟨S256x256, .bf16⟩
  | .local _ .vmem, ⟨5, _⟩ => ⟨S1x256, .f32⟩
  | .local _ .vmem, ⟨6, _⟩ => ⟨S256x16, .bf16⟩
  | .local _ .vmem, ⟨7, _⟩ => ⟨S1x16, .f32⟩
  | .local _ .vmem, ⟨8, _⟩ => ⟨S4096x16, .f32⟩
  | .local _ .vmem, ⟨9, _⟩ => ⟨S4096x16, .f32⟩
  | _, _ => ⟨S2097152x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x16 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S2097152x32_S524288x128 : S2097152x32.ShapeCasts S524288x128
  transposes_S64x32_S32x64_1_0 : S64x32.Transposes [1, 0] S32x64
  bcast_S_S32x64 : S_.BroadcastsInDim S32x64 (![] : Fin 0 → Fin S32x64.rank)
  concatenates_S32x64_S32x64_S32x64_S32x64_S32x256_d1 : Shape.Concatenates [S32x64, S32x64, S32x64, S32x64] S32x256 1
  concatenates_S32x256_S32x256_S32x256_S32x256_S128x256_d0 : Shape.Concatenates [S32x256, S32x256, S32x256, S32x256] S128x256 0
  bitsLt_bf16_f32 : FTy.bits .bf16 < FTy.bits .f32
  transposes_S64x64_S64x64_1_0 : S64x64.Transposes [1, 0] S64x64
  bcast_S_S64x64 : S_.BroadcastsInDim S64x64 (![] : Fin 0 → Fin S64x64.rank)
  concatenates_S64x64_S64x64_S64x64_S64x64_S64x256_d1 : Shape.Concatenates [S64x64, S64x64, S64x64, S64x64] S64x256 1
  concatenates_S64x256_S64x256_S64x256_S64x256_S256x256_d0 : Shape.Concatenates [S64x256, S64x256, S64x256, S64x256] S256x256 0
  transposes_S4x64_S64x4_1_0 : S4x64.Transposes [1, 0] S64x4
  bcast_S_S64x4 : S_.BroadcastsInDim S64x4 (![] : Fin 0 → Fin S64x4.rank)
  concatenates_S64x4_S64x4_S64x4_S64x4_S64x16_d1 : Shape.Concatenates [S64x4, S64x4, S64x4, S64x4] S64x16 1
  concatenates_S64x16_S64x16_S64x16_S64x16_S256x16_d0 : Shape.Concatenates [S64x16, S64x16, S64x16, S64x16] S256x16 0
  shapeCasts_S64_S1x64 : S64.ShapeCasts S1x64
  bcast_S1x64_S4x64_0_1 : S1x64.BroadcastsInDim S4x64 (![0, 1] : Fin 2 → Fin S4x64.rank)
  shapeCasts_S4x64_S256 : S4x64.ShapeCasts S256
  shapeCasts_S256_S1x256 : S256.ShapeCasts S1x256
  shapeCasts_S4_S1x4 : S4.ShapeCasts S1x4
  bcast_S1x4_S4x4_0_1 : S1x4.BroadcastsInDim S4x4 (![0, 1] : Fin 2 → Fin S4x4.rank)
  shapeCasts_S4x4_S16 : S4x4.ShapeCasts S16
  shapeCasts_S16_S1x16 : S16.ShapeCasts S1x16
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4096x16 : S1x16.Broadcasts S4096x16
  inb_S4096x16_S4096x16_0_0 : ∀ a, (![0, 0] : Fin 2 → Nat) a + S4096x16.size a ≤ S4096x16.size a
  h_S4096x16 : 0 < S4096x16.numel
  shapeCasts_S524288x16_S2097152x4 : S524288x16.ShapeCasts S2097152x4
  dot_S4096x128_S128x256_S4096x256_1_0_0_1_n_n_wf : DotDims.WF S4096x128 S128x256 S4096x256 [1] [0] [0] [1] [] []
  dot_S4096x256_S256x256_S4096x256_1_0_0_1_n_n_wf : DotDims.WF S4096x256 S256x256 S4096x256 [1] [0] [0] [1] [] []
  dot_S4096x256_S256x16_S4096x16_1_0_0_1_n_n_wf : DotDims.WF S4096x256 S256x16 S4096x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S524288x128.size a
  hwx0_0 : ∀ i : grid0.Coords, EltTy.bits .f32 = 32 ∨ (Rect.block (s := S524288x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x16.size a ≤ S256x16.size a
  hwx0_5 : ∀ i : grid0.Coords, EltTy.bits .bf16 = 32 ∨ (Rect.block (s := S256x16) S256x16.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x16.size a ≤ S1x16.size a
  hwx0_6 : ∀ i : grid0.Coords, EltTy.bits .f32 = 32 ∨ (Rect.block (s := S1x16) S1x16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x16.size a ≤ S524288x16.size a
  hwx0_7 : ∀ i : grid0.Coords, EltTy.bits .f32 = 32 ∨ (Rect.block (s := S524288x16) S4096x16.size (cc0_transform_7 i) (hinb0_7 i)).WholeWords (EltTy.packing .f32)

variable [Facts₀]

def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x16_S4096x16_1_0_0_1_n_n : DotDims S4096x256 S256x16 S4096x16 where
  lhsContracting := [1]
  rhsContracting := [0]
  lhsNonContracting := [0]
  rhsNonContracting := [1]
  lhsBatch := []
  rhsBatch := []
  wf := dot_S4096x256_S256x16_S4096x16_1_0_0_1_n_n_wf

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S256x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v36) S1x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v37) S4096x16.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2097152x32 : Shape := ⟨2, ![2097152, 32]⟩
abbrev S64x32 : Shape := ⟨2, ![64, 32]⟩
abbrev S64 : Shape := ⟨1, ![64]⟩
abbrev S64x64 : Shape := ⟨2, ![64, 64]⟩
abbrev S4x64 : Shape := ⟨2, ![4, 64]⟩
abbrev S4 : Shape := ⟨1, ![4]⟩
abbrev S32x64 : Shape := ⟨2, ![32, 64]⟩
abbrev S2097152x64 : Shape := ⟨2, ![2097152, 64]⟩
abbrev S1x64 : Shape := ⟨2, ![1, 64]⟩
abbrev S_ : Shape := ⟨0, ![]⟩
abbrev S64x4 : Shape := ⟨2, ![64, 4]⟩
abbrev S2097152x4 : Shape := ⟨2, ![2097152, 4]⟩
abbrev S1x4 : Shape := ⟨2, ![1, 4]⟩

abbrev nBuf : Space → Nat
  | .hbm => 28
  | .vmem => 0
  | .smem => 0
  | _ => 0

abbrev bufTy : (tb : Table) → Fin (tcTables nBuf tb) → BufTy
  | .hbm, ⟨0, _⟩ => ⟨S2097152x32, .f32⟩
  | .hbm, ⟨1, _⟩ => ⟨S64x32, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S4x64, .f32⟩
  | .hbm, ⟨6, _⟩ => ⟨S4, .f32⟩
  | .hbm, ⟨7, _⟩ => ⟨S32x64, .f32⟩
  | .hbm, ⟨8, _⟩ => ⟨S2097152x64, .f32⟩
  | .hbm, ⟨9, _⟩ => ⟨S1x64, .f32⟩
  | .hbm, ⟨10, _⟩ => ⟨S2097152x64, .f32⟩
  | .hbm, ⟨11, _⟩ => ⟨S2097152x64, .f32⟩
  | .hbm, ⟨12, _⟩ => ⟨S_, .f32⟩
  | .hbm, ⟨13, _⟩ => ⟨S2097152x64, .f32⟩
  | .hbm, ⟨14, _⟩ => ⟨S2097152x64, .f32⟩
  | .hbm, ⟨15, _⟩ => ⟨S64x64, .f32⟩
  | .hbm, ⟨16, _⟩ => ⟨S2097152x64, .f32⟩
  | .hbm, ⟨17, _⟩ => ⟨S1x64, .f32⟩
  | .hbm, ⟨18, _⟩ => ⟨S2097152x64, .f32⟩
  | .hbm, ⟨19, _⟩ => ⟨S2097152x64, .f32⟩
  | .hbm, ⟨20, _⟩ => ⟨S_, .f32⟩
  | .hbm, ⟨21, _⟩ => ⟨S2097152x64, .f32⟩
  | .hbm, ⟨22, _⟩ => ⟨S2097152x64, .f32⟩
  | .hbm, ⟨23, _⟩ => ⟨S64x4, .f32⟩
  | .hbm, ⟨24, _⟩ => ⟨S2097152x4, .f32⟩
  | .hbm, ⟨25, _⟩ => ⟨S1x4, .f32⟩
  | .hbm, ⟨26, _⟩ => ⟨S2097152x4, .f32⟩
  | .hbm, ⟨27, _⟩ => ⟨S2097152x4, .f32⟩
  | _, _ => ⟨S2097152x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call1_cst : Ref sig .tc := ⟨.hbm, 20, rfl⟩
abbrev main_call1_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]

class Facts₀ : Prop where
  transposes_S64x32_S32x64_1_0 : S64x32.Transposes [1, 0] S32x64
  bcast_S64_S1x64_1 : S64.BroadcastsInDim S1x64 (![1] : Fin 1 → Fin S1x64.rank)
  bcast_S1x64_S2097152x64_0_1 : S1x64.BroadcastsInDim S2097152x64 (![0, 1] : Fin 2 → Fin S2097152x64.rank)
  bcast_S_S2097152x64 : S_.BroadcastsInDim S2097152x64 (![] : Fin 0 → Fin S2097152x64.rank)
  transposes_S64x64_S64x64_1_0 : S64x64.Transposes [1, 0] S64x64
  transposes_S4x64_S64x4_1_0 : S4x64.Transposes [1, 0] S64x4
  bcast_S4_S1x4_1 : S4.BroadcastsInDim S1x4 (![1] : Fin 1 → Fin S1x4.rank)
  bcast_S1x4_S2097152x4_0_1 : S1x4.BroadcastsInDim S2097152x4 (![0, 1] : Fin 2 → Fin S2097152x4.rank)
  dot_S2097152x32_S32x64_S2097152x64_1_0_0_1_n_n_wf : DotDims.WF S2097152x32 S32x64 S2097152x64 [1] [0] [0] [1] [] []
  dot_S2097152x64_S64x64_S2097152x64_1_0_0_1_n_n_wf : DotDims.WF S2097152x64 S64x64 S2097152x64 [1] [0] [0] [1] [] []
  dot_S2097152x64_S64x4_S2097152x4_1_0_0_1_n_n_wf : DotDims.WF S2097152x64 S64x4 S2097152x4 [1] [0] [0] [1] [] []

variable [Facts₀]

def dot_S2097152x32_S32x64_S2097152x64_1_0_0_1_n_n : DotDims S2097152x32 S32x64 S2097152x64 where
  lhsContracting := [1]
  rhsContracting := [0]
  lhsNonContracting := [0]
  rhsNonContracting := [1]
  lhsBatch := []
  rhsBatch := []
  wf := dot_S2097152x32_S32x64_S2097152x64_1_0_0_1_n_n_wf
def dot_S2097152x64_S64x64_S2097152x64_1_0_0_1_n_n : DotDims S2097152x64 S64x64 S2097152x64 where
  lhsContracting := [1]
  rhsContracting := [0]
  lhsNonContracting := [0]
  rhsNonContracting := [1]
  lhsBatch := []
  rhsBatch := []
  wf := dot_S2097152x64_S64x64_S2097152x64_1_0_0_1_n_n_wf
def dot_S2097152x64_S64x4_S2097152x4_1_0_0_1_n_n : DotDims S2097152x64 S64x4 S2097152x4 where
  lhsContracting := [1]
  rhsContracting := [0]
  lhsNonContracting := [0]
  rhsNonContracting := [1]
  lhsBatch := []
  rhsBatch := []
  wf := dot_S2097152x64_S64x4_S2097152x4_1_0_0_1_n_n_wf

class Facts : Prop extends Facts₀ where

variable [Facts]
-- ==== Proof.KernelRun.lean ====
/-
  The packed perceptron as one pipelined region between host operations, run at any float instance.

  @main first builds the region's seven operands from its arguments by forty host operations: the input's rows
  packed four to a 128-lane row (a reshape), each weight matrix transposed and laid four times along the diagonal of
  a matrix that is zero elsewhere (a broadcast zero and five concatenations per matrix, then a change of float
  format), each bias row repeated four times. The region then walks 128 grid points; at point t it is handed rows
  4096·t … 4096·t + 4095 of the packed input and the six small operands whole (these never move: their block
  index is (0, 0) at every point), and writes rows 4096·t … of the packed result. One host reshape unpacks the result.

  What is proved here: every weakly fair execution terminates without a fault; at the end each array the region
  stages holds what the pipeline's bookkeeping computes from what the body leaves in the output buffer at each point,
  every other buffer holds what the host operations after the region make of that, and in particular the seven
  argument arrays hold what they were launched with, since no host operation writes one and the region stages none.
  The body leaves in the output buffer one store covering it: the body's arithmetic, as ONE pure term, of the seven
  input blocks — the term the value proof reads.
-/
import proofs.«419429_j84052509982983_3_alg».proof.Proof.Gen.Kernel.Launch
import proofs.«419429_j84052509982983_3_alg».proof.Proof.Gen.Kernel.Skeleton
import proofs.«419429_j84052509982983_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Packed

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- What core `c`'s buffers hold when the region is entered: the launch contents with the forty host operations
    before the region applied in order. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

/-- No host operation allocates a buffer: each writes the one buffer the program names for its result. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the forty operations, the region, and the unpacking reshape: run from the launch memory it reaches the
    region with the buffers at `V`, and what is left to run after the region is the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches only the packed result (a staged array) and the unpacked result (a buffer
    that bypasses the region). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And it writes the unpacked result only, which is none of the eight staged arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.reshape_writes, Finset.mem_singleton] <;> exact StableHlo.devRef_ne_of_ne (by decide)

/-- The seven argument buffers of @main. -/
def IsArg (b : Ref sig .tc) : Prop :=
  b = main_arg0 ∨ b = main_arg1 ∨ b = main_arg2 ∨ b = main_arg3 ∨ b = main_arg4 ∨ b = main_arg5 ∨ b = main_arg6

/-- None of the forty operations before the region writes an argument (each writes its own result buffer), so the
    region finds every argument as launched. -/
theorem V_arg (c : Dev nD) (b : Ref sig .tc) (hb : IsArg b) : V m c b = m ((c : Thread nD τ).loc b) := by
  rcases hb with rfl | rfl | rfl | rfl | rfl | rfl | rfl
  all_goals
    exact StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.nary_writes,
        StableHlo.reshape_writes, Finset.mem_singleton]
      repeat' apply And.intro
      all_goals exact StableHlo.devRef_ne_of_ne (by decide)))

/-- An argument is none of the eight arrays the region stages, -/
theorem arg_ne_arr (b : Ref sig .tc) (hb : IsArg b) : ∀ w, Pipeline.arrRef spec0 w ≠ b := by
  rcases hb with rfl | rfl | rfl | rfl | rfl | rfl | rfl
  all_goals decide
/-- and is not the unpacked result. -/
theorem arg_ne_out (b : Ref sig .tc) (hb : IsArg b) : b ≠ main_v38 := by
  rcases hb with rfl | rfl | rfl | rfl | rfl | rfl | rfl
  all_goals decide

/-- So the reshape after the region does not write it and the region's write-backs do not reach it: every argument
    ends as launched. -/
theorem W_arg (dats : (p : Fin _) → (c : Dev nD) → Dat τ (Elt F) Unit ℕ (UR sig nD τ) ℕ (cfgs p) c) (c : Dev nD)
    (b : Ref sig .tc) (hb : IsArg b) :
    Pipeline.afterTail₀ cfgs dats 0 (V0 m) [hostOps1] c b = m ((c : Thread nD τ).loc b) := by
  unfold Pipeline.afterTail₀
  rw [StableHlo.after_of_forall_not_mem (b := Proc.devRef .tc b) _ _ (List.forall_iff_forall_mem.mp (by
        simp only [hostOps1, List.flatten_cons, List.flatten_nil, List.append_nil, List.cons_append,
          List.nil_append, List.Forall, StableHlo.reshape_writes, Finset.mem_singleton]
        exact StableHlo.devRef_ne_of_ne (arg_ne_out b hb))),
    Pipeline.withArrays_of_ne _ c (V0 m c) _ b (arg_ne_arr b hb)]
  exact V_arg m c b hb

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

section Before
variable {c : Dev nD} (dat : Dat τ (Elt F) Unit ℕ (UR sig nD τ) ℕ cfg0 c)

/-- An input window's current staging buffer holds the window's block at every point, whether the pipeline fetched it
    there or not: the packed input is fetched at every point; a weight or bias operand is fetched at the first point
    only, and at the later points its block index has not moved and the body left the buffer as it found it. Stated
    for any proof data whose arrays are the region-entry contents and whose body leaves the input blocks in place. -/
theorem before_in0 (hA : dat.A 0 = V m c (Pipeline.arrRef spec0 0)) (hafter : ∀ t, dat.after 0 t = iblk m c 0 t)
    (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 (hA : dat.A 1 = V m c (Pipeline.arrRef spec0 1)) (hafter : ∀ t, dat.after 1 t = iblk m c 1 t)
    (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 (hA : dat.A 2 = V m c (Pipeline.arrRef spec0 2)) (hafter : ∀ t, dat.after 2 t = iblk m c 2 t)
    (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 (hA : dat.A 3 = V m c (Pipeline.arrRef spec0 3)) (hafter : ∀ t, dat.after 3 t = iblk m c 3 t)
    (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 (hA : dat.A 4 = V m c (Pipeline.arrRef spec0 4)) (hafter : ∀ t, dat.after 4 t = iblk m c 4 t)
    (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5 (hA : dat.A 5 = V m c (Pipeline.arrRef spec0 5)) (hafter : ∀ t, dat.after 5 t = iblk m c 5 t)
    (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6 (hA : dat.A 6 = V m c (Pipeline.arrRef spec0 6)) (hafter : ∀ t, dat.after 6 t = iblk m c 6 t)
    (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
end Before

/-! ## What the body leaves in the output buffer -/

/-- The whole of each staging buffer: every load and the one store of the body is of a whole buffer. -/
abbrev boxX : Rect S4096x128 := Rect.unit (s := S4096x128) ![0, 0] S4096x128.size inb_S4096x128_S4096x128_0_0
abbrev boxW0 : Rect S128x256 := Rect.unit (s := S128x256) ![0, 0] S128x256.size inb_S128x256_S128x256_0_0
abbrev boxB : Rect S1x256 := Rect.unit (s := S1x256) ![0, 0] S1x256.size inb_S1x256_S1x256_0_0
abbrev boxW1 : Rect S256x256 := Rect.unit (s := S256x256) ![0, 0] S256x256.size inb_S256x256_S256x256_0_0
abbrev boxW2 : Rect S256x16 := Rect.unit (s := S256x16) ![0, 0] S256x16.size inb_S256x16_S256x16_0_0
abbrev boxB2 : Rect S1x16 := Rect.unit (s := S1x16) ![0, 0] S1x16.size inb_S1x16_S1x16_0_0
abbrev boxO : Rect S4096x16 := Rect.unit (s := S4096x16) ![0, 0] S4096x16.size inb_S4096x16_S4096x16_0_0

/-- The output buffer after the body, from the seven input buffers' contents: one store of the whole buffer, whose
    value is the body's arithmetic (three matrix products, each followed by its bias row, the first two by a
    maximum with zero) of the seven loaded blocks. -/
def outBlock (x : Vec F S4096x128 .f32) (w0 : Vec F S128x256 .bf16) (b0 : Vec F S1x256 .f32) (w1 : Vec F S256x256 .bf16)
    (b1 : Vec F S1x256 .f32) (w2 : Vec F S256x16 .bf16) (b2 : Vec F S1x16 .f32) : Vec F S4096x16 .f32 :=
  View.canon [⟨boxO, k0_pay1 (View.ld x boxX) (View.ld w0 boxW0) (View.ld b0 boxB) (View.ld w1 boxW1) (View.ld b1 boxB) (View.ld w2 boxW2) (View.ld b2 boxB2)⟩]

/-- That one store covers the buffer. -/
theorem outCover (p : Vec F S4096x16 .f32) (y : S4096x16.Idx) :
    ∃ pc ∈ ([⟨boxO, p⟩] : List (View.Piece (Elt F) S4096x16 .f32)), y ∈ pc.1.set :=
  View.cover_of_tiled [⟨boxO, p⟩] S4096x16.size (by rfl) y

/-! ## The body's triple -/

set_option maxHeartbeats 1000000 in
/-- The body, called on eight whole staging buffers — the seven inputs' at known contents, the output's at any —
    runs to its continuation with the inputs' buffers as they were and the output's at `outBlock` of the inputs'. -/
theorem sound_kernel (c : Dev nD) (E : Set ℕ) (i : grid0.Coords)
    (a1 : Memref sig .tc .vmem S4096x128 .f32) (h1 : a1.IsWhole) (a2 : Memref sig .tc .vmem S128x256 .bf16) (h2 : a2.IsWhole)
    (a3 : Memref sig .tc .vmem S1x256 .f32) (h3 : a3.IsWhole) (a4 : Memref sig .tc .vmem S256x256 .bf16) (h4 : a4.IsWhole)
    (a5 : Memref sig .tc .vmem S1x256 .f32) (h5 : a5.IsWhole) (a6 : Memref sig .tc .vmem S256x16 .bf16) (h6 : a6.IsWhole)
    (a7 : Memref sig .tc .vmem S1x16 .f32) (h7 : a7.IsWhole) (a8 : Memref sig .tc .vmem S4096x16 .f32) (h8 : a8.IsWhole)
    (x : Vec F S4096x128 .f32) (w0 : Vec F S128x256 .bf16) (b0 : Vec F S1x256 .f32) (w1 : Vec F S256x256 .bf16)
    (b1 : Vec F S1x256 .f32) (w2 : Vec F S256x16 .bf16) (b2 : Vec F S1x16 .f32) (K : PUnit → sProp 𝕄) :
    iprop(owns (c : Thread nD τ) a1 fullShare x ∗ owns (c : Thread nD τ) a2 fullShare w0 ∗ owns (c : Thread nD τ) a3 fullShare b0
        ∗ owns (c : Thread nD τ) a4 fullShare w1 ∗ owns (c : Thread nD τ) a5 fullShare b1 ∗ owns (c : Thread nD τ) a6 fullShare w2
        ∗ owns (c : Thread nD τ) a7 fullShare b2 ∗ (∃ d, owns (c : Thread nD τ) a8 fullShare d)
        ∗ (iprop(owns (c : Thread nD τ) a1 fullShare x ∗ owns (c : Thread nD τ) a2 fullShare w0 ∗ owns (c : Thread nD τ) a3 fullShare b0
            ∗ owns (c : Thread nD τ) a4 fullShare w1 ∗ owns (c : Thread nD τ) a5 fullShare b1 ∗ owns (c : Thread nD τ) a6 fullShare w2
            ∗ owns (c : Thread nD τ) a7 fullShare b2 ∗ owns (c : Thread nD τ) a8 fullShare (outBlock x w0 b0 w1 b1 w2 b2)) -∗ K ⟨⟩))
      ⊢ wp frame (wpE (defs₀ (F := F)) Variants.none c none) E (cc0__mlp_kernel i a1 h1 a2 h2 a3 h3 a4 h4 a5 h5 a6 h6 a7 h7 a8 h8) K := by
  simp only [cc0__mlp_kernel_eq_skeleton]; unfold cc0__mlp_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1; subst hf2; subst hf3; subst hf4; subst hf5; subst hf6; subst hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (outCover _)

/-! ## The pipeline's proof data -/

/-- Core `c`'s proof data: the staged arrays as the region finds them; after the body at point `t`, each input's
    buffer at its block and the output's at `outBlock` of the seven input blocks; the region's invariant the scoped
    rest and the generator register, which the body never touches; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlock (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the region-entry contents (the definition projected, so that the fold over the forty
    host operations is never opened to see it). -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
/-- What point `t` leaves in the output buffer: the body's value of that point's seven input blocks. -/
theorem after7 (c : Dev nD) (t : Fin cfg0.N) : (dats m 0 c).after 7 t
    = outBlock (iblk m c 0 t) (iblk m c 1 t) (iblk m c 2 t) (iblk m c 3 t) (iblk m c 4 t) (iblk m c 5 t) (iblk m c 6 t) := by
  dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d
theorem before5 (c : Dev nD) (t : Fin cfg0.N) (d) : (dats m 0 c).before 5 t d = iblk m c 5 t :=
  before_in5 m (dats m 0 c) (A_eq m c 5) (after5 m c) t d
theorem before6 (c : Dev nD) (t : Fin cfg0.N) (d) : (dats m 0 c).before 6 t d = iblk m c 6 t :=
  before_in6 m (dats m 0 c) (A_eq m c 6) (after6 m c) t d

/-! ## The body obligation -/

/-- What the pipeline hands the body at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it takes back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the seven input buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any launch memory with the semaphores at zero, every weakly fair execution of @main terminates without a fault,
    each staged array ends at what the pipeline computes from the proof data, and every other unscoped buffer at what
    the unpacking reshape leaves of the region's exit contents. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- An argument is unscoped and is no staged array, so the run's post speaks of it. -/
theorem arg_rest (b : Ref sig .tc) (hb : IsArg b) : b ∈ Pipeline.restRefs sig spec0 := by
  rcases hb with rfl | rfl | rfl | rfl | rfl | rfl | rfl
  all_goals exact Pipeline.mem_restRefs_of _ (by decide) (by decide)

/-- The program runs to its end, nothing faults, and each of the seven argument arrays ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    have k : ∀ b, IsArg b → _ = m ((c.tc : Thread nD τ).loc b) := fun b hb =>
      ((h c).2 b (arg_rest b hb)).trans (W_arg m (dats m) c b hb)
    ⟨k _ (.inl rfl), k _ (.inr (.inl rfl)), k _ (.inr (.inr (.inl rfl))), k _ (.inr (.inr (.inr (.inl rfl)))),
      k _ (.inr (.inr (.inr (.inr (.inl rfl))))), k _ (.inr (.inr (.inr (.inr (.inr (.inl rfl)))))),
      k _ (.inr (.inr (.inr (.inr (.inr (.inr rfl))))))⟩) (run_main m ρ)

end Cert.Kernel.Packed

end
-- ==== Proof.KernelIdealRun.lean ====
/-
  The packed perceptron as one pipelined region between host operations, run at any float instance.

  @main first builds the region's seven operands from its arguments by forty host operations: the input's rows
  packed four to a 128-lane row (a reshape), each weight matrix transposed and laid four times along the diagonal of
  a matrix that is zero elsewhere (a broadcast zero and five concatenations per matrix, then a change of float
  format), each bias row repeated four times. The region then walks 128 grid points; at point t it is handed rows
  4096·t … 4096·t + 4095 of the packed input and the six small operands whole (these never move: their block
  index is (0, 0) at every point), and writes rows 4096·t … of the packed result. One host reshape unpacks the result.

  What is proved here: every weakly fair execution terminates without a fault; at the end each array the region
  stages holds what the pipeline's bookkeeping computes from what the body leaves in the output buffer at each point,
  every other buffer holds what the host operations after the region make of that, and in particular the seven
  argument arrays hold what they were launched with, since no host operation writes one and the region stages none.
  The body leaves in the output buffer one store covering it: the body's arithmetic, as ONE pure term, of the seven
  input blocks — the term the value proof reads.
-/
import proofs.«419429_j84052509982983_3_alg».proof.Proof.Gen.KernelIdeal.Launch
import proofs.«419429_j84052509982983_3_alg».proof.Proof.Gen.KernelIdeal.Skeleton
import proofs.«419429_j84052509982983_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Packed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- What core `c`'s buffers hold when the region is entered: the launch contents with the forty host operations
    before the region applied in order. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

/-- No host operation allocates a buffer: each writes the one buffer the program names for its result. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the forty operations, the region, and the unpacking reshape: run from the launch memory it reaches the
    region with the buffers at `V`, and what is left to run after the region is the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches only the packed result (a staged array) and the unpacked result (a buffer
    that bypasses the region). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And it writes the unpacked result only, which is none of the eight staged arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.reshape_writes, Finset.mem_singleton] <;> exact StableHlo.devRef_ne_of_ne (by decide)

/-- The seven argument buffers of @main. -/
def IsArg (b : Ref sig .tc) : Prop :=
  b = main_arg0 ∨ b = main_arg1 ∨ b = main_arg2 ∨ b = main_arg3 ∨ b = main_arg4 ∨ b = main_arg5 ∨ b = main_arg6

/-- None of the forty operations before the region writes an argument (each writes its own result buffer), so the
    region finds every argument as launched. -/
theorem V_arg (c : Dev nD) (b : Ref sig .tc) (hb : IsArg b) : V m c b = m ((c : Thread nD τ).loc b) := by
  rcases hb with rfl | rfl | rfl | rfl | rfl | rfl | rfl
  all_goals
    exact StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.nary_writes,
        StableHlo.reshape_writes, Finset.mem_singleton]
      repeat' apply And.intro
      all_goals exact StableHlo.devRef_ne_of_ne (by decide)))

/-- An argument is none of the eight arrays the region stages, -/
theorem arg_ne_arr (b : Ref sig .tc) (hb : IsArg b) : ∀ w, Pipeline.arrRef spec0 w ≠ b := by
  rcases hb with rfl | rfl | rfl | rfl | rfl | rfl | rfl
  all_goals decide
/-- and is not the unpacked result. -/
theorem arg_ne_out (b : Ref sig .tc) (hb : IsArg b) : b ≠ main_v38 := by
  rcases hb with rfl | rfl | rfl | rfl | rfl | rfl | rfl
  all_goals decide

/-- So the reshape after the region does not write it and the region's write-backs do not reach it: every argument
    ends as launched. -/
theorem W_arg (dats : (p : Fin _) → (c : Dev nD) → Dat τ (Elt F) Unit ℕ (UR sig nD τ) ℕ (cfgs p) c) (c : Dev nD)
    (b : Ref sig .tc) (hb : IsArg b) :
    Pipeline.afterTail₀ cfgs dats 0 (V0 m) [hostOps1] c b = m ((c : Thread nD τ).loc b) := by
  unfold Pipeline.afterTail₀
  rw [StableHlo.after_of_forall_not_mem (b := Proc.devRef .tc b) _ _ (List.forall_iff_forall_mem.mp (by
        simp only [hostOps1, List.flatten_cons, List.flatten_nil, List.append_nil, List.cons_append,
          List.nil_append, List.Forall, StableHlo.reshape_writes, Finset.mem_singleton]
        exact StableHlo.devRef_ne_of_ne (arg_ne_out b hb))),
    Pipeline.withArrays_of_ne _ c (V0 m c) _ b (arg_ne_arr b hb)]
  exact V_arg m c b hb

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

section Before
variable {c : Dev nD} (dat : Dat τ (Elt F) Unit ℕ (UR sig nD τ) ℕ cfg0 c)

/-- An input window's current staging buffer holds the window's block at every point, whether the pipeline fetched it
    there or not: the packed input is fetched at every point; a weight or bias operand is fetched at the first point
    only, and at the later points its block index has not moved and the body left the buffer as it found it. Stated
    for any proof data whose arrays are the region-entry contents and whose body leaves the input blocks in place. -/
theorem before_in0 (hA : dat.A 0 = V m c (Pipeline.arrRef spec0 0)) (hafter : ∀ t, dat.after 0 t = iblk m c 0 t)
    (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 (hA : dat.A 1 = V m c (Pipeline.arrRef spec0 1)) (hafter : ∀ t, dat.after 1 t = iblk m c 1 t)
    (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 (hA : dat.A 2 = V m c (Pipeline.arrRef spec0 2)) (hafter : ∀ t, dat.after 2 t = iblk m c 2 t)
    (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 (hA : dat.A 3 = V m c (Pipeline.arrRef spec0 3)) (hafter : ∀ t, dat.after 3 t = iblk m c 3 t)
    (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 (hA : dat.A 4 = V m c (Pipeline.arrRef spec0 4)) (hafter : ∀ t, dat.after 4 t = iblk m c 4 t)
    (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5 (hA : dat.A 5 = V m c (Pipeline.arrRef spec0 5)) (hafter : ∀ t, dat.after 5 t = iblk m c 5 t)
    (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6 (hA : dat.A 6 = V m c (Pipeline.arrRef spec0 6)) (hafter : ∀ t, dat.after 6 t = iblk m c 6 t)
    (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
end Before

/-! ## What the body leaves in the output buffer -/

/-- The whole of each staging buffer: every load and the one store of the body is of a whole buffer. -/
abbrev boxX : Rect S4096x128 := Rect.unit (s := S4096x128) ![0, 0] S4096x128.size inb_S4096x128_S4096x128_0_0
abbrev boxW0 : Rect S128x256 := Rect.unit (s := S128x256) ![0, 0] S128x256.size inb_S128x256_S128x256_0_0
abbrev boxB : Rect S1x256 := Rect.unit (s := S1x256) ![0, 0] S1x256.size inb_S1x256_S1x256_0_0
abbrev boxW1 : Rect S256x256 := Rect.unit (s := S256x256) ![0, 0] S256x256.size inb_S256x256_S256x256_0_0
abbrev boxW2 : Rect S256x16 := Rect.unit (s := S256x16) ![0, 0] S256x16.size inb_S256x16_S256x16_0_0
abbrev boxB2 : Rect S1x16 := Rect.unit (s := S1x16) ![0, 0] S1x16.size inb_S1x16_S1x16_0_0
abbrev boxO : Rect S4096x16 := Rect.unit (s := S4096x16) ![0, 0] S4096x16.size inb_S4096x16_S4096x16_0_0

/-- The output buffer after the body, from the seven input buffers' contents: one store of the whole buffer, whose
    value is the body's arithmetic (three matrix products, each followed by its bias row, the first two by a
    maximum with zero) of the seven loaded blocks. -/
def outBlock (x : Vec F S4096x128 .f32) (w0 : Vec F S128x256 .bf16) (b0 : Vec F S1x256 .f32) (w1 : Vec F S256x256 .bf16)
    (b1 : Vec F S1x256 .f32) (w2 : Vec F S256x16 .bf16) (b2 : Vec F S1x16 .f32) : Vec F S4096x16 .f32 :=
  View.canon [⟨boxO, k0_pay1 (View.ld x boxX) (View.ld w0 boxW0) (View.ld b0 boxB) (View.ld w1 boxW1) (View.ld b1 boxB) (View.ld w2 boxW2) (View.ld b2 boxB2)⟩]

/-- That one store covers the buffer. -/
theorem outCover (p : Vec F S4096x16 .f32) (y : S4096x16.Idx) :
    ∃ pc ∈ ([⟨boxO, p⟩] : List (View.Piece (Elt F) S4096x16 .f32)), y ∈ pc.1.set :=
  View.cover_of_tiled [⟨boxO, p⟩] S4096x16.size (by rfl) y

/-! ## The body's triple -/

set_option maxHeartbeats 1000000 in
/-- The body, called on eight whole staging buffers — the seven inputs' at known contents, the output's at any —
    runs to its continuation with the inputs' buffers as they were and the output's at `outBlock` of the inputs'. -/
theorem sound_kernel (c : Dev nD) (E : Set ℕ) (i : grid0.Coords)
    (a1 : Memref sig .tc .vmem S4096x128 .f32) (h1 : a1.IsWhole) (a2 : Memref sig .tc .vmem S128x256 .bf16) (h2 : a2.IsWhole)
    (a3 : Memref sig .tc .vmem S1x256 .f32) (h3 : a3.IsWhole) (a4 : Memref sig .tc .vmem S256x256 .bf16) (h4 : a4.IsWhole)
    (a5 : Memref sig .tc .vmem S1x256 .f32) (h5 : a5.IsWhole) (a6 : Memref sig .tc .vmem S256x16 .bf16) (h6 : a6.IsWhole)
    (a7 : Memref sig .tc .vmem S1x16 .f32) (h7 : a7.IsWhole) (a8 : Memref sig .tc .vmem S4096x16 .f32) (h8 : a8.IsWhole)
    (x : Vec F S4096x128 .f32) (w0 : Vec F S128x256 .bf16) (b0 : Vec F S1x256 .f32) (w1 : Vec F S256x256 .bf16)
    (b1 : Vec F S1x256 .f32) (w2 : Vec F S256x16 .bf16) (b2 : Vec F S1x16 .f32) (K : PUnit → sProp 𝕄) :
    iprop(owns (c : Thread nD τ) a1 fullShare x ∗ owns (c : Thread nD τ) a2 fullShare w0 ∗ owns (c : Thread nD τ) a3 fullShare b0
        ∗ owns (c : Thread nD τ) a4 fullShare w1 ∗ owns (c : Thread nD τ) a5 fullShare b1 ∗ owns (c : Thread nD τ) a6 fullShare w2
        ∗ owns (c : Thread nD τ) a7 fullShare b2 ∗ (∃ d, owns (c : Thread nD τ) a8 fullShare d)
        ∗ (iprop(owns (c : Thread nD τ) a1 fullShare x ∗ owns (c : Thread nD τ) a2 fullShare w0 ∗ owns (c : Thread nD τ) a3 fullShare b0
            ∗ owns (c : Thread nD τ) a4 fullShare w1 ∗ owns (c : Thread nD τ) a5 fullShare b1 ∗ owns (c : Thread nD τ) a6 fullShare w2
            ∗ owns (c : Thread nD τ) a7 fullShare b2 ∗ owns (c : Thread nD τ) a8 fullShare (outBlock x w0 b0 w1 b1 w2 b2)) -∗ K ⟨⟩))
      ⊢ wp frame (wpE (defs₀ (F := F)) Variants.none c none) E (cc0__mlp_kernel i a1 h1 a2 h2 a3 h3 a4 h4 a5 h5 a6 h6 a7 h7 a8 h8) K := by
  simp only [cc0__mlp_kernel_eq_skeleton]; unfold cc0__mlp_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1; subst hf2; subst hf3; subst hf4; subst hf5; subst hf6; subst hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (outCover _)

/-! ## The pipeline's proof data -/

/-- Core `c`'s proof data: the staged arrays as the region finds them; after the body at point `t`, each input's
    buffer at its block and the output's at `outBlock` of the seven input blocks; the region's invariant the scoped
    rest and the generator register, which the body never touches; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlock (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the region-entry contents (the definition projected, so that the fold over the forty
    host operations is never opened to see it). -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
/-- What point `t` leaves in the output buffer: the body's value of that point's seven input blocks. -/
theorem after7 (c : Dev nD) (t : Fin cfg0.N) : (dats m 0 c).after 7 t
    = outBlock (iblk m c 0 t) (iblk m c 1 t) (iblk m c 2 t) (iblk m c 3 t) (iblk m c 4 t) (iblk m c 5 t) (iblk m c 6 t) := by
  dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d
theorem before5 (c : Dev nD) (t : Fin cfg0.N) (d) : (dats m 0 c).before 5 t d = iblk m c 5 t :=
  before_in5 m (dats m 0 c) (A_eq m c 5) (after5 m c) t d
theorem before6 (c : Dev nD) (t : Fin cfg0.N) (d) : (dats m 0 c).before 6 t d = iblk m c 6 t :=
  before_in6 m (dats m 0 c) (A_eq m c 6) (after6 m c) t d

/-! ## The body obligation -/

/-- What the pipeline hands the body at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it takes back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the seven input buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any launch memory with the semaphores at zero, every weakly fair execution of @main terminates without a fault,
    each staged array ends at what the pipeline computes from the proof data, and every other unscoped buffer at what
    the unpacking reshape leaves of the region's exit contents. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- An argument is unscoped and is no staged array, so the run's post speaks of it. -/
theorem arg_rest (b : Ref sig .tc) (hb : IsArg b) : b ∈ Pipeline.restRefs sig spec0 := by
  rcases hb with rfl | rfl | rfl | rfl | rfl | rfl | rfl
  all_goals exact Pipeline.mem_restRefs_of _ (by decide) (by decide)

/-- The program runs to its end, nothing faults, and each of the seven argument arrays ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    have k : ∀ b, IsArg b → _ = m ((c.tc : Thread nD τ).loc b) := fun b hb =>
      ((h c).2 b (arg_rest b hb)).trans (W_arg m (dats m) c b hb)
    ⟨k _ (.inl rfl), k _ (.inr (.inl rfl)), k _ (.inr (.inr (.inl rfl))), k _ (.inr (.inr (.inr (.inl rfl)))),
      k _ (.inr (.inr (.inr (.inr (.inl rfl))))), k _ (.inr (.inr (.inr (.inr (.inr (.inl rfl)))))),
      k _ (.inr (.inr (.inr (.inr (.inr (.inr rfl))))))⟩) (run_main m ρ)

end Cert.KernelIdeal.Packed

end
-- ==== Proof.KernelArgs.lean ====
/-
  @main's seven arguments on one core, named as functions of their indices: the input (2097152 × 32), the three weight
  matrices (64 × 32, 64 × 64, 4 × 64) and the three bias vectors (64, 64, 4).
-/
import proofs.«419429_j84052509982983_3_alg».proof.Proof.KernelIdealRun
import Idealize.ShloMosaic.PureOps.Ideal

noncomputable section

namespace Cert.KernelIdeal.Operands

open Cert.KernelIdeal Cert.KernelIdeal.Gen Cert.KernelIdeal.Packed
open Idealize.ShloMosaic Idealize.ShloMosaic.TcCoe Idealize.SL.Sem

variable (m : (ℓ : Loc nD τ sig) → Buf (Elt Ideal) ℓ) (c : Dev nD)

abbrev argX : S2097152x32.Idx → EReal := m ((c : Thread nD τ).loc main_arg0)
abbrev argW0 : S64x32.Idx → EReal := m ((c : Thread nD τ).loc main_arg1)
abbrev argB0 : S64.Idx → EReal := m ((c : Thread nD τ).loc main_arg2)
abbrev argW1 : S64x64.Idx → EReal := m ((c : Thread nD τ).loc main_arg3)
abbrev argB1 : S64.Idx → EReal := m ((c : Thread nD τ).loc main_arg4)
abbrev argW2 : S4x64.Idx → EReal := m ((c : Thread nD τ).loc main_arg5)
abbrev argB2 : S4.Idx → EReal := m ((c : Thread nD τ).loc main_arg6)

end Cert.KernelIdeal.Operands

end
-- ==== Proof.KernelOperands.lean ====
/-
  The packed input and the three tiled bias rows, as the region finds them, read at an index.

  The packed input is the input reshaped: entry (R, l) of the packed array is entry (4R + l / 32, l mod 32) of the input,
  the two having one row-major position 128 R + l. A tiled bias row is the bias vector made a 1 × k row, repeated down
  four rows, and the 4 × k array read row-major as one row of 4k entries: entry (0, col) is the bias at col mod k.
-/
import proofs.«419429_j84052509982983_3_alg».proof.Proof.KernelArgs
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.Operands

open Cert.KernelIdeal Cert.KernelIdeal.Gen Cert.KernelIdeal.Packed
open Idealize.ShloMosaic Idealize.ShloMosaic.TcCoe Idealize.ShloMosaic.ValueIdx Idealize.SL.Sem

variable (m : (ℓ : Loc nD τ sig) → Buf (Elt Ideal) ℓ) (c : Dev nD)

/-- The packed input at (R, l): row 4R + l / 32 of the input, at l mod 32. -/
theorem xp_apply (R : Fin 524288) (l : Fin 128) :
    (V m c main_v0 : S524288x128.Idx → EReal) (ix2 R l)
      = argX m c (ix2 ⟨4 * R.val + l.val / 32, by omega⟩ ⟨l.val % 32, Nat.mod_lt _ (by decide)⟩) := by
  have e : (V m c main_v0 : S524288x128.Idx → EReal)
      = shapeCast S524288x128 (argX m c) shapeCasts_S2097152x32_S524288x128 := by
    dsimp only [V, V0]
    simp only [hostOps0, List.flatten_cons, List.flatten_nil, List.append_nil]
    after_results
    rfl
  rw [e]
  refine shapeCast_apply _ _ _ _ ?_
  rw [Shape.rowMajor_val_two, Shape.rowMajor_val_two]
  show (4 * R.val + l.val / 32) * 32 + l.val % 32 = R.val * 128 + l.val
  omega

/-- A vector of 64 entries made a 1 × 64 row, repeated down four rows, and the 4 × 64 array read row-major as one row of
    256 entries: entry (0, col) is the vector at col mod 64. Column col has row-major position col, which in the 4 × 64
    array is row col / 64, column col mod 64; every row of the repeated array is the one row. -/
private theorem tile64_apply (x : S64.Idx → EReal) (col : Fin 256) :
    shapeCast S1x256
        (shapeCast S256
          (broadcastInDim S4x64 ![0, 1] bcast_S1x64_S4x64_0_1 (shapeCast S1x64 x shapeCasts_S64_S1x64))
          shapeCasts_S4x64_S256)
        shapeCasts_S256_S1x256 (ix2 0 col)
      = x (ix1 ⟨col.val % 64, Nat.mod_lt _ (by decide)⟩) := by
  have hq : col.val / 64 < 4 := by omega
  have hr : col.val % 64 < 64 := Nat.mod_lt _ (by decide)
  refine (shapeCast_apply _ shapeCasts_S256_S1x256 (ix2 (0 : Fin 1) col) (ix1 col) ?_).trans ?_
  · rw [Shape.rowMajor_val_two, Shape.rowMajor_val_one]
    show col.val = 0 * 256 + col.val
    omega
  refine (shapeCast_apply _ shapeCasts_S4x64_S256 (ix1 col)
    (ix2 (⟨col.val / 64, hq⟩ : Fin 4) (⟨col.val % 64, hr⟩ : Fin 64)) ?_).trans ?_
  · rw [Shape.rowMajor_val_two, Shape.rowMajor_val_one]
    show col.val / 64 * 64 + col.val % 64 = col.val
    omega
  refine (broadcastInDim_apply _ bcast_S1x64_S4x64_0_1 _ _
    (ix2 (0 : Fin 1) (⟨col.val % 64, hr⟩ : Fin 64)) (fun a => match a with
      | ⟨0, _⟩ => by show 0 = if (1 : Nat) = 1 then 0 else col.val / 64; rw [if_pos rfl]
      | ⟨1, _⟩ => by show col.val % 64 = if (64 : Nat) = 1 then 0 else col.val % 64; rw [if_neg (by decide)])).trans ?_
  refine shapeCast_apply _ shapeCasts_S64_S1x64 _ (ix1 (⟨col.val % 64, hr⟩ : Fin 64)) ?_
  rw [Shape.rowMajor_val_two, Shape.rowMajor_val_one]
  show col.val % 64 = 0 * 64 + col.val % 64
  omega

/-- The same for a vector of 4 entries: a 1 × 4 row, repeated down four rows, read row-major as one row of 16 entries. -/
private theorem tile4_apply (x : S4.Idx → EReal) (col : Fin 16) :
    shapeCast S1x16
        (shapeCast S16
          (broadcastInDim S4x4 ![0, 1] bcast_S1x4_S4x4_0_1 (shapeCast S1x4 x shapeCasts_S4_S1x4))
          shapeCasts_S4x4_S16)
        shapeCasts_S16_S1x16 (ix2 0 col)
      = x (ix1 ⟨col.val % 4, Nat.mod_lt _ (by decide)⟩) := by
  have hq : col.val / 4 < 4 := by omega
  have hr : col.val % 4 < 4 := Nat.mod_lt _ (by decide)
  refine (shapeCast_apply _ shapeCasts_S16_S1x16 (ix2 (0 : Fin 1) col) (ix1 col) ?_).trans ?_
  · rw [Shape.rowMajor_val_two, Shape.rowMajor_val_one]
    show col.val = 0 * 16 + col.val
    omega
  refine (shapeCast_apply _ shapeCasts_S4x4_S16 (ix1 col)
    (ix2 (⟨col.val / 4, hq⟩ : Fin 4) (⟨col.val % 4, hr⟩ : Fin 4)) ?_).trans ?_
  · rw [Shape.rowMajor_val_two, Shape.rowMajor_val_one]
    show col.val / 4 * 4 + col.val % 4 = col.val
    omega
  refine (broadcastInDim_apply _ bcast_S1x4_S4x4_0_1 _ _
    (ix2 (0 : Fin 1) (⟨col.val % 4, hr⟩ : Fin 4)) (fun a => match a with
      | ⟨0, _⟩ => by show 0 = if (1 : Nat) = 1 then 0 else col.val / 4; rw [if_pos rfl]
      | ⟨1, _⟩ => by show col.val % 4 = if (4 : Nat) = 1 then 0 else col.val % 4; rw [if_neg (by decide)])).trans ?_
  refine shapeCast_apply _ shapeCasts_S4_S1x4 _ (ix1 (⟨col.val % 4, hr⟩ : Fin 4)) ?_
  rw [Shape.rowMajor_val_two, Shape.rowMajor_val_one]
  show col.val % 4 = 0 * 4 + col.val % 4
  omega

/-- The first tiled bias at column col. -/
theorem b0_apply (col : Fin 256) :
    (V m c main_v28 : S1x256.Idx → EReal) (ix2 0 col) = argB0 m c (ix1 ⟨col.val % 64, Nat.mod_lt _ (by decide)⟩) := by
  have e : (V m c main_v28 : S1x256.Idx → EReal)
      = shapeCast S1x256
          (shapeCast S256
            (broadcastInDim S4x64 ![0, 1] bcast_S1x64_S4x64_0_1 (shapeCast S1x64 (argB0 m c) shapeCasts_S64_S1x64))
            shapeCasts_S4x64_S256)
          shapeCasts_S256_S1x256 := by
    dsimp only [V, V0]
    simp only [hostOps0, List.flatten_cons, List.flatten_nil, List.append_nil]
    after_results
    rfl
  rw [e]
  exact tile64_apply (argB0 m c) col

/-- The second tiled bias at column col. -/
theorem b1_apply (col : Fin 256) :
    (V m c main_v32 : S1x256.Idx → EReal) (ix2 0 col) = argB1 m c (ix1 ⟨col.val % 64, Nat.mod_lt _ (by decide)⟩) := by
  have e : (V m c main_v32 : S1x256.Idx → EReal)
      = shapeCast S1x256
          (shapeCast S256
            (broadcastInDim S4x64 ![0, 1] bcast_S1x64_S4x64_0_1 (shapeCast S1x64 (argB1 m c) shapeCasts_S64_S1x64))
            shapeCasts_S4x64_S256)
          shapeCasts_S256_S1x256 := by
    dsimp only [V, V0]
    simp only [hostOps0, List.flatten_cons, List.flatten_nil, List.append_nil]
    after_results
    rfl
  rw [e]
  exact tile64_apply (argB1 m c) col

/-- The third tiled bias at column col. -/
theorem b2_apply (col : Fin 16) :
    (V m c main_v36 : S1x16.Idx → EReal) (ix2 0 col) = argB2 m c (ix1 ⟨col.val % 4, Nat.mod_lt _ (by decide)⟩) := by
  have e : (V m c main_v36 : S1x16.Idx → EReal)
      = shapeCast S1x16
          (shapeCast S16
            (broadcastInDim S4x4 ![0, 1] bcast_S1x4_S4x4_0_1 (shapeCast S1x4 (argB2 m c) shapeCasts_S4_S1x4))
            shapeCasts_S4x4_S16)
          shapeCasts_S16_S1x16 := by
    dsimp only [V, V0]
    simp only [hostOps0, List.flatten_cons, List.flatten_nil, List.append_nil]
    after_results
    rfl
  rw [e]
  exact tile4_apply (argB2 m c) col

end Cert.KernelIdeal.Operands

end
-- ==== Proof.KernelWeights.lean ====
/-
  The three block-diagonal weight matrices, as the region finds them, read at an index.

  For a weight matrix W (k × n) the operand is four row bands laid one under another (a concatenation along the rows),
  band p' being four column blocks side by side (a concatenation along the columns) of which block p' is W transposed
  (n × k) and the other three are a zero broadcast to that shape. So entry (l, col), with l = n·p' + q and col = k·p + j,
  is W's entry (j, q) when p' = p and zero otherwise. The final change of float format is the identity on the extended
  reals.
-/
import proofs.«419429_j84052509982983_3_alg».proof.Proof.KernelArgs
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.Operands

open Cert.KernelIdeal Cert.KernelIdeal.Gen Cert.KernelIdeal.Packed
open Idealize.ShloMosaic Idealize.ShloMosaic.TcCoe Idealize.ShloMosaic.ValueIdx Idealize.SL.Sem

variable (m : (ℓ : Loc nD τ sig) → Buf (Elt Ideal) ℓ) (c : Dev nD)

/-! ## Reading the pieces -/

/-- One of four, by number (any number past two names the fourth). -/
private def pick4 {β : Type} (x0 x1 x2 x3 : β) : Nat → β
  | 0 => x0 | 1 => x1 | 2 => x2 | _ => x3

/-- The zero scalar broadcast to a shape reads zero at every index. -/
private theorem zero_apply {t : Shape} (h : S_.BroadcastsInDim t (![] : Fin 0 → Fin t.rank)) (i : t.Idx) :
    broadcastInDim t ![] h (constant (F := Ideal) S_ .f32 0x00000000#32) i = (0 : EReal) :=
  (broadcastInDim_apply _ h (constant (F := Ideal) S_ .f32 0x00000000#32) i ix0 (fun a => a.elim0)).trans Ideal.ofBits_zero_f32

/-! ## The first matrix: 64 × 32 transposed, in 32 × 64 blocks -/

/-- The transposed first weight at (q, j) is the weight at (j, q). -/
private theorem t0_apply (x : S64x32.Idx → EReal) (q : Fin 32) (j : Fin 64) :
    transpose S32x64 [1, 0] x transposes_S64x32_S32x64_1_0 (ix2 q j) = x (ix2 j q) :=
  transpose_apply [1, 0] x transposes_S64x32_S32x64_1_0 (ix2 q j) (ix2 j q) (fun b => match b with
    | ⟨0, _⟩ => rfl
    | ⟨1, _⟩ => rfl)

/-- Four 32 × 64 blocks side by side, read at (q, col): block col / 64 at (q, col % 64). -/
private theorem cols0_apply {α : Type} (x0 x1 x2 x3 : S32x64.Idx → α) (q : Fin 32) (col : Fin 256) :
    concatenate S32x256 1 [⟨S32x64, x0⟩, ⟨S32x64, x1⟩, ⟨S32x64, x2⟩, ⟨S32x64, x3⟩] concatenates_S32x64_S32x64_S32x64_S32x64_S32x256_d1 (ix2 q col)
      = pick4 x0 x1 x2 x3 (col.val / 64) (ix2 q ⟨col.val % 64, Nat.mod_lt _ (by decide)⟩) := by
  have hc := col.isLt
  -- off the column axis the block's index is the band's
  have hi : ∀ b : Fin S32x64.rank, b.cast (rfl : S32x64.rank = S32x256.rank) ≠ (1 : Fin S32x256.rank) →
      ((ix2 q (⟨col.val % 64, Nat.mod_lt _ (by decide)⟩ : Fin 64) : S32x64.Idx) b).val = ((ix2 q col : S32x256.Idx) (b.cast rfl)).val :=
    fun b hb => match b, hb with
      | ⟨0, _⟩, _ => rfl
      | ⟨1, _⟩, hb => absurd rfl hb
  have h4 : col.val / 64 = 0 ∨ col.val / 64 = 1 ∨ col.val / 64 = 2 ∨ col.val / 64 = 3 := by omega
  -- block p begins at column 64·p
  rcases h4 with h | h | h | h <;> rw [h]
  · exact concatenate_apply_piece 1 _ _ (ix2 q col) 0 (by show 0 < 4; decide) S32x64 x0 rfl rfl 0 rfl _ hi
      (by show 0 + col.val % 64 = col.val; omega)
  · exact concatenate_apply_piece 1 _ _ (ix2 q col) 1 (by show 1 < 4; decide) S32x64 x1 rfl rfl 64 rfl _ hi
      (by show 64 + col.val % 64 = col.val; omega)
  · exact concatenate_apply_piece 1 _ _ (ix2 q col) 2 (by show 2 < 4; decide) S32x64 x2 rfl rfl 128 rfl _ hi
      (by show 128 + col.val % 64 = col.val; omega)
  · exact concatenate_apply_piece 1 _ _ (ix2 q col) 3 (by show 3 < 4; decide) S32x64 x3 rfl rfl 192 rfl _ hi
      (by show 192 + col.val % 64 = col.val; omega)

/-- Four 32 × 256 bands one under another, read at (l, col): band l / 32 at (l % 32, col). -/
private theorem rows0_apply {α : Type} (x0 x1 x2 x3 : S32x256.Idx → α) (l : Fin 128) (col : Fin 256) :
    concatenate S128x256 0 [⟨S32x256, x0⟩, ⟨S32x256, x1⟩, ⟨S32x256, x2⟩, ⟨S32x256, x3⟩] concatenates_S32x256_S32x256_S32x256_S32x256_S128x256_d0 (ix2 l col)
      = pick4 x0 x1 x2 x3 (l.val / 32) (ix2 ⟨l.val % 32, Nat.mod_lt _ (by decide)⟩ col) := by
  have hl := l.isLt
  -- off the row axis the band's index is the matrix's
  have hi : ∀ b : Fin S32x256.rank, b.cast (rfl : S32x256.rank = S128x256.rank) ≠ (0 : Fin S128x256.rank) →
      ((ix2 (⟨l.val % 32, Nat.mod_lt _ (by decide)⟩ : Fin 32) col : S32x256.Idx) b).val = ((ix2 l col : S128x256.Idx) (b.cast rfl)).val :=
    fun b hb => match b, hb with
      | ⟨0, _⟩, hb => absurd rfl hb
      | ⟨1, _⟩, _ => rfl
  have h4 : l.val / 32 = 0 ∨ l.val / 32 = 1 ∨ l.val / 32 = 2 ∨ l.val / 32 = 3 := by omega
  -- band p begins at row 32·p
  rcases h4 with h | h | h | h <;> rw [h]
  · exact concatenate_apply_piece 0 _ _ (ix2 l col) 0 (by show 0 < 4; decide) S32x256 x0 rfl rfl 0 rfl _ hi
      (by show 0 + l.val % 32 = l.val; omega)
  · exact concatenate_apply_piece 0 _ _ (ix2 l col) 1 (by show 1 < 4; decide) S32x256 x1 rfl rfl 32 rfl _ hi
      (by show 32 + l.val % 32 = l.val; omega)
  · exact concatenate_apply_piece 0 _ _ (ix2 l col) 2 (by show 2 < 4; decide) S32x256 x2 rfl rfl 64 rfl _ hi
      (by show 64 + l.val % 32 = l.val; omega)
  · exact concatenate_apply_piece 0 _ _ (ix2 l col) 3 (by show 3 < 4; decide) S32x256 x3 rfl rfl 96 rfl _ hi
      (by show 96 + l.val % 32 = l.val; omega)

/-- Row band p of the first matrix: four column blocks, block p the matrix x and the other three z. -/
private def band0 (x z : S32x64.Idx → EReal) (p : Nat) : S32x256.Idx → EReal :=
  concatenate S32x256 1 [⟨S32x64, if p = 0 then x else z⟩, ⟨S32x64, if p = 1 then x else z⟩, ⟨S32x64, if p = 2 then x else z⟩,
    ⟨S32x64, if p = 3 then x else z⟩] concatenates_S32x64_S32x64_S32x64_S32x64_S32x256_d1

/-- Band p at (q, col) is x when col lies in column block p and z otherwise, each at (q, col % 64). -/
private theorem band0_apply (x z : S32x64.Idx → EReal) (p : Nat) (q : Fin 32) (col : Fin 256) :
    band0 x z p (ix2 q col) = if p = col.val / 64 then x (ix2 q ⟨col.val % 64, Nat.mod_lt _ (by decide)⟩)
      else z (ix2 q ⟨col.val % 64, Nat.mod_lt _ (by decide)⟩) := by
  unfold band0
  rw [cols0_apply]
  have hc := col.isLt
  have h4 : col.val / 64 = 0 ∨ col.val / 64 = 1 ∨ col.val / 64 = 2 ∨ col.val / 64 = 3 := by omega
  -- the block picked is itself a choice between x and z: read the choice at the index
  rcases h4 with h | h | h | h <;> rw [h]
  · exact apply_ite (fun f => f (ix2 q ⟨col.val % 64, Nat.mod_lt _ (by decide)⟩)) (p = 0) x z
  · exact apply_ite (fun f => f (ix2 q ⟨col.val % 64, Nat.mod_lt _ (by decide)⟩)) (p = 1) x z
  · exact apply_ite (fun f => f (ix2 q ⟨col.val % 64, Nat.mod_lt _ (by decide)⟩)) (p = 2) x z
  · exact apply_ite (fun f => f (ix2 q ⟨col.val % 64, Nat.mod_lt _ (by decide)⟩)) (p = 3) x z

/-- The first block-diagonal weight at (l, col). -/
theorem w0_apply (l : Fin 128) (col : Fin 256) :
    (V m c main_v8 : S128x256.Idx → EReal) (ix2 l col)
      = if l.val / 32 = col.val / 64 then argW0 m c (ix2 ⟨col.val % 64, Nat.mod_lt _ (by decide)⟩ ⟨l.val % 32, Nat.mod_lt _ (by decide)⟩) else 0 := by
  -- the operand as a term of the weight: band p is the transposed weight in column block p among zero blocks, the four
  -- bands lie one under another, and the change of float format comes last
  have e : (V m c main_v8 : S128x256.Idx → EReal)
      = (truncf (F := Ideal) .bf16 (concatenate S128x256 0
          [⟨S32x256, band0 (transpose S32x64 [1, 0] (argW0 m c) transposes_S64x32_S32x64_1_0) (broadcastInDim S32x64 ![] bcast_S_S32x64 (constant (F := Ideal) S_ .f32 0x00000000#32)) 0⟩,
           ⟨S32x256, band0 (transpose S32x64 [1, 0] (argW0 m c) transposes_S64x32_S32x64_1_0) (broadcastInDim S32x64 ![] bcast_S_S32x64 (constant (F := Ideal) S_ .f32 0x00000000#32)) 1⟩,
           ⟨S32x256, band0 (transpose S32x64 [1, 0] (argW0 m c) transposes_S64x32_S32x64_1_0) (broadcastInDim S32x64 ![] bcast_S_S32x64 (constant (F := Ideal) S_ .f32 0x00000000#32)) 2⟩,
           ⟨S32x256, band0 (transpose S32x64 [1, 0] (argW0 m c) transposes_S64x32_S32x64_1_0) (broadcastInDim S32x64 ![] bcast_S_S32x64 (constant (F := Ideal) S_ .f32 0x00000000#32)) 3⟩]
          concatenates_S32x256_S32x256_S32x256_S32x256_S128x256_d0) bitsLt_bf16_f32 : S128x256.Idx → EReal) := by
    dsimp only [V, V0]
    simp only [hostOps0, List.flatten_cons, List.flatten_nil, List.append_nil]
    after_results
    rfl
  refine (congrFun e _).trans ?_
  -- the change of format is the identity; row l lies in band l / 32, at row l % 32 of it
  rw [truncf_apply, rows0_apply]
  have hl := l.isLt
  have h4 : l.val / 32 = 0 ∨ l.val / 32 = 1 ∨ l.val / 32 = 2 ∨ l.val / 32 = 3 := by omega
  have hb : ∀ (x z : S32x64.Idx → EReal),
      pick4 (band0 x z 0) (band0 x z 1) (band0 x z 2) (band0 x z 3) (l.val / 32) = band0 x z (l.val / 32) := by
    intro x z
    rcases h4 with h | h | h | h <;> rw [h] <;> rfl
  -- in that band, column block col / 64 is the transposed weight when it is block l / 32, and zero otherwise
  rw [hb, band0_apply, t0_apply, zero_apply]

/-! ## The second matrix: 64 × 64 transposed, in 64 × 64 blocks -/

/-- The transposed second weight at (q, j) is the weight at (j, q). -/
private theorem t1_apply (x : S64x64.Idx → EReal) (q : Fin 64) (j : Fin 64) :
    transpose S64x64 [1, 0] x transposes_S64x64_S64x64_1_0 (ix2 q j) = x (ix2 j q) :=
  transpose_apply [1, 0] x transposes_S64x64_S64x64_1_0 (ix2 q j) (ix2 j q) (fun b => match b with
    | ⟨0, _⟩ => rfl
    | ⟨1, _⟩ => rfl)

/-- Four 64 × 64 blocks side by side, read at (q, col): block col / 64 at (q, col % 64). -/
private theorem cols1_apply {α : Type} (x0 x1 x2 x3 : S64x64.Idx → α) (q : Fin 64) (col : Fin 256) :
    concatenate S64x256 1 [⟨S64x64, x0⟩, ⟨S64x64, x1⟩, ⟨S64x64, x2⟩, ⟨S64x64, x3⟩] concatenates_S64x64_S64x64_S64x64_S64x64_S64x256_d1 (ix2 q col)
      = pick4 x0 x1 x2 x3 (col.val / 64) (ix2 q ⟨col.val % 64, Nat.mod_lt _ (by decide)⟩) := by
  have hc := col.isLt
  -- off the column axis the block's index is the band's
  have hi : ∀ b : Fin S64x64.rank, b.cast (rfl : S64x64.rank = S64x256.rank) ≠ (1 : Fin S64x256.rank) →
      ((ix2 q (⟨col.val % 64, Nat.mod_lt _ (by decide)⟩ : Fin 64) : S64x64.Idx) b).val = ((ix2 q col : S64x256.Idx) (b.cast rfl)).val :=
    fun b hb => match b, hb with
      | ⟨0, _⟩, _ => rfl
      | ⟨1, _⟩, hb => absurd rfl hb
  have h4 : col.val / 64 = 0 ∨ col.val / 64 = 1 ∨ col.val / 64 = 2 ∨ col.val / 64 = 3 := by omega
  -- block p begins at column 64·p
  rcases h4 with h | h | h | h <;> rw [h]
  · exact concatenate_apply_piece 1 _ _ (ix2 q col) 0 (by show 0 < 4; decide) S64x64 x0 rfl rfl 0 rfl _ hi
      (by show 0 + col.val % 64 = col.val; omega)
  · exact concatenate_apply_piece 1 _ _ (ix2 q col) 1 (by show 1 < 4; decide) S64x64 x1 rfl rfl 64 rfl _ hi
      (by show 64 + col.val % 64 = col.val; omega)
  · exact concatenate_apply_piece 1 _ _ (ix2 q col) 2 (by show 2 < 4; decide) S64x64 x2 rfl rfl 128 rfl _ hi
      (by show 128 + col.val % 64 = col.val; omega)
  · exact concatenate_apply_piece 1 _ _ (ix2 q col) 3 (by show 3 < 4; decide) S64x64 x3 rfl rfl 192 rfl _ hi
      (by show 192 + col.val % 64 = col.val; omega)

/-- Four 64 × 256 bands one under another, read at (l, col): band l / 64 at (l % 64, col). -/
private theorem rows1_apply {α : Type} (x0 x1 x2 x3 : S64x256.Idx → α) (l : Fin 256) (col : Fin 256) :
    concatenate S256x256 0 [⟨S64x256, x0⟩, ⟨S64x256, x1⟩, ⟨S64x256, x2⟩, ⟨S64x256, x3⟩] concatenates_S64x256_S64x256_S64x256_S64x256_S256x256_d0 (ix2 l col)
      = pick4 x0 x1 x2 x3 (l.val / 64) (ix2 ⟨l.val % 64, Nat.mod_lt _ (by decide)⟩ col) := by
  have hl := l.isLt
  -- off the row axis the band's index is the matrix's
  have hi : ∀ b : Fin S64x256.rank, b.cast (rfl : S64x256.rank = S256x256.rank) ≠ (0 : Fin S256x256.rank) →
      ((ix2 (⟨l.val % 64, Nat.mod_lt _ (by decide)⟩ : Fin 64) col : S64x256.Idx) b).val = ((ix2 l col : S256x256.Idx) (b.cast rfl)).val :=
    fun b hb => match b, hb with
      | ⟨0, _⟩, hb => absurd rfl hb
      | ⟨1, _⟩, _ => rfl
  have h4 : l.val / 64 = 0 ∨ l.val / 64 = 1 ∨ l.val / 64 = 2 ∨ l.val / 64 = 3 := by omega
  -- band p begins at row 64·p
  rcases h4 with h | h | h | h <;> rw [h]
  · exact concatenate_apply_piece 0 _ _ (ix2 l col) 0 (by show 0 < 4; decide) S64x256 x0 rfl rfl 0 rfl _ hi
      (by show 0 + l.val % 64 = l.val; omega)
  · exact concatenate_apply_piece 0 _ _ (ix2 l col) 1 (by show 1 < 4; decide) S64x256 x1 rfl rfl 64 rfl _ hi
      (by show 64 + l.val % 64 = l.val; omega)
  · exact concatenate_apply_piece 0 _ _ (ix2 l col) 2 (by show 2 < 4; decide) S64x256 x2 rfl rfl 128 rfl _ hi
      (by show 128 + l.val % 64 = l.val; omega)
  · exact concatenate_apply_piece 0 _ _ (ix2 l col) 3 (by show 3 < 4; decide) S64x256 x3 rfl rfl 192 rfl _ hi
      (by show 192 + l.val % 64 = l.val; omega)

/-- Row band p of the second matrix: four column blocks, block p the matrix x and the other three z. -/
private def band1 (x z : S64x64.Idx → EReal) (p : Nat) : S64x256.Idx → EReal :=
  concatenate S64x256 1 [⟨S64x64, if p = 0 then x else z⟩, ⟨S64x64, if p = 1 then x else z⟩, ⟨S64x64, if p = 2 then x else z⟩,
    ⟨S64x64, if p = 3 then x else z⟩] concatenates_S64x64_S64x64_S64x64_S64x64_S64x256_d1

/-- Band p at (q, col) is x when col lies in column block p and z otherwise, each at (q, col % 64). -/
private theorem band1_apply (x z : S64x64.Idx → EReal) (p : Nat) (q : Fin 64) (col : Fin 256) :
    band1 x z p (ix2 q col) = if p = col.val / 64 then x (ix2 q ⟨col.val % 64, Nat.mod_lt _ (by decide)⟩)
      else z (ix2 q ⟨col.val % 64, Nat.mod_lt _ (by decide)⟩) := by
  unfold band1
  rw [cols1_apply]
  have hc := col.isLt
  have h4 : col.val / 64 = 0 ∨ col.val / 64 = 1 ∨ col.val / 64 = 2 ∨ col.val / 64 = 3 := by omega
  -- the block picked is itself a choice between x and z: read the choice at the index
  rcases h4 with h | h | h | h <;> rw [h]
  · exact apply_ite (fun f => f (ix2 q ⟨col.val % 64, Nat.mod_lt _ (by decide)⟩)) (p = 0) x z
  · exact apply_ite (fun f => f (ix2 q ⟨col.val % 64, Nat.mod_lt _ (by decide)⟩)) (p = 1) x z
  · exact apply_ite (fun f => f (ix2 q ⟨col.val % 64, Nat.mod_lt _ (by decide)⟩)) (p = 2) x z
  · exact apply_ite (fun f => f (ix2 q ⟨col.val % 64, Nat.mod_lt _ (by decide)⟩)) (p = 3) x z

/-- The second block-diagonal weight at (l, col). -/
theorem w1_apply (l : Fin 256) (col : Fin 256) :
    (V m c main_v16 : S256x256.Idx → EReal) (ix2 l col)
      = if l.val / 64 = col.val / 64 then argW1 m c (ix2 ⟨col.val % 64, Nat.mod_lt _ (by decide)⟩ ⟨l.val % 64, Nat.mod_lt _ (by decide)⟩) else 0 := by
  -- the operand as a term of the weight: band p is the transposed weight in column block p among zero blocks, the four
  -- bands lie one under another, and the change of float format comes last
  have e : (V m c main_v16 : S256x256.Idx → EReal)
      = (truncf (F := Ideal) .bf16 (concatenate S256x256 0
          [⟨S64x256, band1 (transpose S64x64 [1, 0] (argW1 m c) transposes_S64x64_S64x64_1_0) (broadcastInDim S64x64 ![] bcast_S_S64x64 (constant (F := Ideal) S_ .f32 0x00000000#32)) 0⟩,
           ⟨S64x256, band1 (transpose S64x64 [1, 0] (argW1 m c) transposes_S64x64_S64x64_1_0) (broadcastInDim S64x64 ![] bcast_S_S64x64 (constant (F := Ideal) S_ .f32 0x00000000#32)) 1⟩,
           ⟨S64x256, band1 (transpose S64x64 [1, 0] (argW1 m c) transposes_S64x64_S64x64_1_0) (broadcastInDim S64x64 ![] bcast_S_S64x64 (constant (F := Ideal) S_ .f32 0x00000000#32)) 2⟩,
           ⟨S64x256, band1 (transpose S64x64 [1, 0] (argW1 m c) transposes_S64x64_S64x64_1_0) (broadcastInDim S64x64 ![] bcast_S_S64x64 (constant (F := Ideal) S_ .f32 0x00000000#32)) 3⟩]
          concatenates_S64x256_S64x256_S64x256_S64x256_S256x256_d0) bitsLt_bf16_f32 : S256x256.Idx → EReal) := by
    dsimp only [V, V0]
    simp only [hostOps0, List.flatten_cons, List.flatten_nil, List.append_nil]
    after_results
    rfl
  refine (congrFun e _).trans ?_
  -- the change of format is the identity; row l lies in band l / 64, at row l % 64 of it
  rw [truncf_apply, rows1_apply]
  have hl := l.isLt
  have h4 : l.val / 64 = 0 ∨ l.val / 64 = 1 ∨ l.val / 64 = 2 ∨ l.val / 64 = 3 := by omega
  have hb : ∀ (x z : S64x64.Idx → EReal),
      pick4 (band1 x z 0) (band1 x z 1) (band1 x z 2) (band1 x z 3) (l.val / 64) = band1 x z (l.val / 64) := by
    intro x z
    rcases h4 with h | h | h | h <;> rw [h] <;> rfl
  -- in that band, column block col / 64 is the transposed weight when it is block l / 64, and zero otherwise
  rw [hb, band1_apply, t1_apply, zero_apply]

/-! ## The third matrix: 4 × 64 transposed, in 64 × 4 blocks -/

/-- The transposed third weight at (q, j) is the weight at (j, q). -/
private theorem t2_apply (x : S4x64.Idx → EReal) (q : Fin 64) (j : Fin 4) :
    transpose S64x4 [1, 0] x transposes_S4x64_S64x4_1_0 (ix2 q j) = x (ix2 j q) :=
  transpose_apply [1, 0] x transposes_S4x64_S64x4_1_0 (ix2 q j) (ix2 j q) (fun b => match b with
    | ⟨0, _⟩ => rfl
    | ⟨1, _⟩ => rfl)

/-- Four 64 × 4 blocks side by side, read at (q, col): block col / 4 at (q, col % 4). -/
private theorem cols2_apply {α : Type} (x0 x1 x2 x3 : S64x4.Idx → α) (q : Fin 64) (col : Fin 16) :
    concatenate S64x16 1 [⟨S64x4, x0⟩, ⟨S64x4, x1⟩, ⟨S64x4, x2⟩, ⟨S64x4, x3⟩] concatenates_S64x4_S64x4_S64x4_S64x4_S64x16_d1 (ix2 q col)
      = pick4 x0 x1 x2 x3 (col.val / 4) (ix2 q ⟨col.val % 4, Nat.mod_lt _ (by decide)⟩) := by
  have hc := col.isLt
  -- off the column axis the block's index is the band's
  have hi : ∀ b : Fin S64x4.rank, b.cast (rfl : S64x4.rank = S64x16.rank) ≠ (1 : Fin S64x16.rank) →
      ((ix2 q (⟨col.val % 4, Nat.mod_lt _ (by decide)⟩ : Fin 4) : S64x4.Idx) b).val = ((ix2 q col : S64x16.Idx) (b.cast rfl)).val :=
    fun b hb => match b, hb with
      | ⟨0, _⟩, _ => rfl
      | ⟨1, _⟩, hb => absurd rfl hb
  have h4 : col.val / 4 = 0 ∨ col.val / 4 = 1 ∨ col.val / 4 = 2 ∨ col.val / 4 = 3 := by omega
  -- block p begins at column 4·p
  rcases h4 with h | h | h | h <;> rw [h]
  · exact concatenate_apply_piece 1 _ _ (ix2 q col) 0 (by show 0 < 4; decide) S64x4 x0 rfl rfl 0 rfl _ hi
      (by show 0 + col.val % 4 = col.val; omega)
  · exact concatenate_apply_piece 1 _ _ (ix2 q col) 1 (by show 1 < 4; decide) S64x4 x1 rfl rfl 4 rfl _ hi
      (by show 4 + col.val % 4 = col.val; omega)
  · exact concatenate_apply_piece 1 _ _ (ix2 q col) 2 (by show 2 < 4; decide) S64x4 x2 rfl rfl 8 rfl _ hi
      (by show 8 + col.val % 4 = col.val; omega)
  · exact concatenate_apply_piece 1 _ _ (ix2 q col) 3 (by show 3 < 4; decide) S64x4 x3 rfl rfl 12 rfl _ hi
      (by show 12 + col.val % 4 = col.val; omega)

/-- Four 64 × 16 bands one under another, read at (l, col): band l / 64 at (l % 64, col). -/
private theorem rows2_apply {α : Type} (x0 x1 x2 x3 : S64x16.Idx → α) (l : Fin 256) (col : Fin 16) :
    concatenate S256x16 0 [⟨S64x16, x0⟩, ⟨S64x16, x1⟩, ⟨S64x16, x2⟩, ⟨S64x16, x3⟩] concatenates_S64x16_S64x16_S64x16_S64x16_S256x16_d0 (ix2 l col)
      = pick4 x0 x1 x2 x3 (l.val / 64) (ix2 ⟨l.val % 64, Nat.mod_lt _ (by decide)⟩ col) := by
  have hl := l.isLt
  -- off the row axis the band's index is the matrix's
  have hi : ∀ b : Fin S64x16.rank, b.cast (rfl : S64x16.rank = S256x16.rank) ≠ (0 : Fin S256x16.rank) →
      ((ix2 (⟨l.val % 64, Nat.mod_lt _ (by decide)⟩ : Fin 64) col : S64x16.Idx) b).val = ((ix2 l col : S256x16.Idx) (b.cast rfl)).val :=
    fun b hb => match b, hb with
      | ⟨0, _⟩, hb => absurd rfl hb
      | ⟨1, _⟩, _ => rfl
  have h4 : l.val / 64 = 0 ∨ l.val / 64 = 1 ∨ l.val / 64 = 2 ∨ l.val / 64 = 3 := by omega
  -- band p begins at row 64·p
  rcases h4 with h | h | h | h <;> rw [h]
  · exact concatenate_apply_piece 0 _ _ (ix2 l col) 0 (by show 0 < 4; decide) S64x16 x0 rfl rfl 0 rfl _ hi
      (by show 0 + l.val % 64 = l.val; omega)
  · exact concatenate_apply_piece 0 _ _ (ix2 l col) 1 (by show 1 < 4; decide) S64x16 x1 rfl rfl 64 rfl _ hi
      (by show 64 + l.val % 64 = l.val; omega)
  · exact concatenate_apply_piece 0 _ _ (ix2 l col) 2 (by show 2 < 4; decide) S64x16 x2 rfl rfl 128 rfl _ hi
      (by show 128 + l.val % 64 = l.val; omega)
  · exact concatenate_apply_piece 0 _ _ (ix2 l col) 3 (by show 3 < 4; decide) S64x16 x3 rfl rfl 192 rfl _ hi
      (by show 192 + l.val % 64 = l.val; omega)

/-- Row band p of the third matrix: four column blocks, block p the matrix x and the other three z. -/
private def band2 (x z : S64x4.Idx → EReal) (p : Nat) : S64x16.Idx → EReal :=
  concatenate S64x16 1 [⟨S64x4, if p = 0 then x else z⟩, ⟨S64x4, if p = 1 then x else z⟩, ⟨S64x4, if p = 2 then x else z⟩,
    ⟨S64x4, if p = 3 then x else z⟩] concatenates_S64x4_S64x4_S64x4_S64x4_S64x16_d1

/-- Band p at (q, col) is x when col lies in column block p and z otherwise, each at (q, col % 4). -/
private theorem band2_apply (x z : S64x4.Idx → EReal) (p : Nat) (q : Fin 64) (col : Fin 16) :
    band2 x z p (ix2 q col) = if p = col.val / 4 then x (ix2 q ⟨col.val % 4, Nat.mod_lt _ (by decide)⟩)
      else z (ix2 q ⟨col.val % 4, Nat.mod_lt _ (by decide)⟩) := by
  unfold band2
  rw [cols2_apply]
  have hc := col.isLt
  have h4 : col.val / 4 = 0 ∨ col.val / 4 = 1 ∨ col.val / 4 = 2 ∨ col.val / 4 = 3 := by omega
  -- the block picked is itself a choice between x and z: read the choice at the index
  rcases h4 with h | h | h | h <;> rw [h]
  · exact apply_ite (fun f => f (ix2 q ⟨col.val % 4, Nat.mod_lt _ (by decide)⟩)) (p = 0) x z
  · exact apply_ite (fun f => f (ix2 q ⟨col.val % 4, Nat.mod_lt _ (by decide)⟩)) (p = 1) x z
  · exact apply_ite (fun f => f (ix2 q ⟨col.val % 4, Nat.mod_lt _ (by decide)⟩)) (p = 2) x z
  · exact apply_ite (fun f => f (ix2 q ⟨col.val % 4, Nat.mod_lt _ (by decide)⟩)) (p = 3) x z

/-- The third block-diagonal weight at (l, col). -/
theorem w2_apply (l : Fin 256) (col : Fin 16) :
    (V m c main_v24 : S256x16.Idx → EReal) (ix2 l col)
      = if l.val / 64 = col.val / 4 then argW2 m c (ix2 ⟨col.val % 4, Nat.mod_lt _ (by decide)⟩ ⟨l.val % 64, Nat.mod_lt _ (by decide)⟩) else 0 := by
  -- the operand as a term of the weight: band p is the transposed weight in column block p among zero blocks, the four
  -- bands lie one under another, and the change of float format comes last
  have e : (V m c main_v24 : S256x16.Idx → EReal)
      = (truncf (F := Ideal) .bf16 (concatenate S256x16 0
          [⟨S64x16, band2 (transpose S64x4 [1, 0] (argW2 m c) transposes_S4x64_S64x4_1_0) (broadcastInDim S64x4 ![] bcast_S_S64x4 (constant (F := Ideal) S_ .f32 0x00000000#32)) 0⟩,
           ⟨S64x16, band2 (transpose S64x4 [1, 0] (argW2 m c) transposes_S4x64_S64x4_1_0) (broadcastInDim S64x4 ![] bcast_S_S64x4 (constant (F := Ideal) S_ .f32 0x00000000#32)) 1⟩,
           ⟨S64x16, band2 (transpose S64x4 [1, 0] (argW2 m c) transposes_S4x64_S64x4_1_0) (broadcastInDim S64x4 ![] bcast_S_S64x4 (constant (F := Ideal) S_ .f32 0x00000000#32)) 2⟩,
           ⟨S64x16, band2 (transpose S64x4 [1, 0] (argW2 m c) transposes_S4x64_S64x4_1_0) (broadcastInDim S64x4 ![] bcast_S_S64x4 (constant (F := Ideal) S_ .f32 0x00000000#32)) 3⟩]
          concatenates_S64x16_S64x16_S64x16_S64x16_S256x16_d0) bitsLt_bf16_f32 : S256x16.Idx → EReal) := by
    dsimp only [V, V0]
    simp only [hostOps0, List.flatten_cons, List.flatten_nil, List.append_nil]
    after_results
    rfl
  refine (congrFun e _).trans ?_
  -- the change of format is the identity; row l lies in band l / 64, at row l % 64 of it
  rw [truncf_apply, rows2_apply]
  have hl := l.isLt
  have h4 : l.val / 64 = 0 ∨ l.val / 64 = 1 ∨ l.val / 64 = 2 ∨ l.val / 64 = 3 := by omega
  have hb : ∀ (x z : S64x4.Idx → EReal),
      pick4 (band2 x z 0) (band2 x z 1) (band2 x z 2) (band2 x z 3) (l.val / 64) = band2 x z (l.val / 64) := by
    intro x z
    rcases h4 with h | h | h | h <;> rw [h] <;> rfl
  -- in that band, column block col / 4 is the transposed weight when it is block l / 64, and zero otherwise
  rw [hb, band2_apply, t2_apply, zero_apply]

end Cert.KernelIdeal.Operands

end
-- ==== Proof.MlpSpec.lean ====
/-
  The three-layer perceptron as ONE function of its arguments, and the law by which packing rows does not change it.

  For an input row x_i ∈ ℝ³², weights W0 (64 × 32), W1 (64 × 64), W2 (4 × 64) and biases b0, b1, b2, the result row is
      W2 · relu (W1 · relu (W0 · x_i + b0) + b1) + b2,      relu v = max v 0,
  every sum, product and maximum taken on the extended reals.

  The packed program computes the same thing four rows at a time: four consecutive input rows lie side by side in one
  row of 128 entries, and each weight matrix is replaced by the matrix that carries four copies of its transpose along
  the diagonal and zeros elsewhere. Column 64·p + j of a packed product is then a sum over all 128 (or 256) entries
  of the packed row, but every term whose entry belongs to another original row than p is a product with zero, and
  on the extended reals x · 0 = 0 for EVERY x, infinite or not. So the sum is the sum over original row p's own
  entries: the plain layer. No finiteness of the inputs is used.
-/
import Idealize.ShloMosaic.PureOps.Ideal
import Idealize.ShloMosaic.PureOps.Ideal.Laws

noncomputable section

namespace Cert.Mlp

open Idealize.ShloMosaic

/-- max v 0, the zero spelt as the float word both programs print. -/
def relu (v : EReal) : EReal := max v (Ideal.ofBits .f32 0x00000000#32)

/-- Row `i` of the first hidden layer: relu (W0 · x_i + b0). -/
def hidden0 (x : Fin 2097152 → Fin 32 → EReal) (W0 : Fin 64 → Fin 32 → EReal) (b0 : Fin 64 → EReal)
    (i : Fin 2097152) (j : Fin 64) : EReal :=
  relu ((∑ k : Fin 32, x i k * W0 j k) + b0 j)

/-- Row `i` of the second hidden layer: relu (W1 · h0_i + b1). -/
def hidden1 (x : Fin 2097152 → Fin 32 → EReal) (W0 : Fin 64 → Fin 32 → EReal) (b0 : Fin 64 → EReal)
    (W1 : Fin 64 → Fin 64 → EReal) (b1 : Fin 64 → EReal) (i : Fin 2097152) (j : Fin 64) : EReal :=
  relu ((∑ k : Fin 64, hidden0 x W0 b0 i k * W1 j k) + b1 j)

/-- Row `i` of the result: W2 · h1_i + b2. -/
def result (x : Fin 2097152 → Fin 32 → EReal) (W0 : Fin 64 → Fin 32 → EReal) (b0 : Fin 64 → EReal)
    (W1 : Fin 64 → Fin 64 → EReal) (b1 : Fin 64 → EReal) (W2 : Fin 4 → Fin 64 → EReal) (b2 : Fin 4 → EReal)
    (i : Fin 2097152) (o : Fin 4) : EReal :=
  (∑ k : Fin 64, hidden1 x W0 b0 W1 b1 i k * W2 o k) + b2 o

/-- A sum whose terms vanish off the image of an injection is the sum over the injection's domain. -/
theorem sum_eq_sum_of_support {N n : ℕ} (f : Fin N → EReal) (emb : Fin n → Fin N) (hinj : Function.Injective emb)
    (hzero : ∀ l, (∀ q, emb q ≠ l) → f l = 0) : ∑ l, f l = ∑ q, f (emb q) := by
  classical
  rw [← Finset.sum_image (s := Finset.univ) (g := emb) (f := f) (fun a _ b _ h => hinj h)]
  symm
  refine Finset.sum_subset (Finset.subset_univ _) fun l _ hl => hzero l fun q hq => ?_
  exact hl (Finset.mem_image.mpr ⟨q, Finset.mem_univ _, hq⟩)

/-- ONE PACKED LAYER IS ONE PLAIN LAYER. `A` is a packed row and `emb` places original row p's `n` entries in it;
    `Wbd` is the block-diagonal matrix, read at one column `col` = (p, j): on row p's entries it is the plain weight
    row `W j`, off them it is zero; the tiled bias at `col` is `b j`. Then the packed product's entry at `col` plus
    the tiled bias is the plain layer's entry j of original row p. -/
theorem packed_layer {N M n k : ℕ} (A : Fin N → EReal) (Wbd : Fin N → Fin M → EReal) (bt : Fin M → EReal)
    (a : Fin n → EReal) (W : Fin k → Fin n → EReal) (b : Fin k → EReal) (col : Fin M) (j : Fin k)
    (emb : Fin n → Fin N) (hinj : Function.Injective emb)
    (hA : ∀ q, A (emb q) = a q) (hW : ∀ q, Wbd (emb q) col = W j q)
    (hoff : ∀ l, (∀ q, emb q ≠ l) → Wbd l col = 0) (hb : bt col = b j) :
    (∑ l, A l * Wbd l col) + bt col = (∑ q, a q * W j q) + b j := by
  rw [sum_eq_sum_of_support (fun l => A l * Wbd l col) emb hinj (fun l h => by rw [hoff l h, mul_zero])]
  simp only [hA, hW, hb]

end Cert.Mlp

end
-- ==== Proof.KernelPayload.lean ====
/-
  The body's arithmetic read at one entry of the output block.

  The body computes, on whole blocks, three matrix products into zero accumulators, each followed by the addition of a
  bias row broadcast down the rows, the first two also by the maximum with a broadcast zero; the changes of float format
  between them are the identity on the extended reals. Read at row r and column c each product is the sum over its one
  contracted axis, each broadcast bias is the bias row's entry at the column.
-/
import proofs.«419429_j84052509982983_3_alg».proof.Proof.Gen.KernelIdeal.Skeleton
import proofs.«419429_j84052509982983_3_alg».proof.Proof.MlpSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.TcCoe Idealize.ShloMosaic.ValueIdx

/-! ## The three products read at an entry

Each product contracts the left operand's columns against the right operand's rows; read at (r, c) its operand indices
are (r, k) and (k, c), k the one contracted coordinate. -/

/-- The left operand's row coordinate is the output's row. -/
private theorem lhs_a_0 (i : S4096x256.Idx) (q : dot_S4096x128_S128x256_S4096x256_1_0_0_1_n_n.contr.Idx) :
    (dot_S4096x128_S128x256_S4096x256_1_0_0_1_n_n.lhsIdx i q 0).val = (i 0).val := by
  unfold DotDims.lhsIdx
  rw [dif_neg (show ¬(0 : Fin S4096x128.rank) ∈ dot_S4096x128_S128x256_S4096x256_1_0_0_1_n_n.lhsBatch by decide), dif_pos (show (0 : Fin S4096x128.rank) ∈ dot_S4096x128_S128x256_S4096x256_1_0_0_1_n_n.lhsNonContracting by decide)]
  rfl
/-- The left operand's column coordinate is the contracted one. -/
private theorem lhs_a_1 (i : S4096x256.Idx) (q : dot_S4096x128_S128x256_S4096x256_1_0_0_1_n_n.contr.Idx) :
    (dot_S4096x128_S128x256_S4096x256_1_0_0_1_n_n.lhsIdx i q 1).val = (q ⟨0, by decide⟩).val :=
  dot_S4096x128_S128x256_S4096x256_1_0_0_1_n_n.lhsIdx_val_of_single rfl i q
/-- The right operand's row coordinate is the contracted one. -/
private theorem rhs_a_0 (i : S4096x256.Idx) (q : dot_S4096x128_S128x256_S4096x256_1_0_0_1_n_n.contr.Idx) :
    (dot_S4096x128_S128x256_S4096x256_1_0_0_1_n_n.rhsIdx i q 0).val = (q ⟨0, by decide⟩).val :=
  dot_S4096x128_S128x256_S4096x256_1_0_0_1_n_n.rhsIdx_val_of_single rfl i q
/-- The right operand's column coordinate is the output's column. -/
private theorem rhs_a_1 (i : S4096x256.Idx) (q : dot_S4096x128_S128x256_S4096x256_1_0_0_1_n_n.contr.Idx) :
    (dot_S4096x128_S128x256_S4096x256_1_0_0_1_n_n.rhsIdx i q 1).val = (i 1).val := by
  unfold DotDims.rhsIdx
  rw [dif_neg (show ¬(1 : Fin S128x256.rank) ∈ dot_S4096x128_S128x256_S4096x256_1_0_0_1_n_n.rhsBatch by decide), dif_pos (show (1 : Fin S128x256.rank) ∈ dot_S4096x128_S128x256_S4096x256_1_0_0_1_n_n.rhsNonContracting by decide)]
  rfl

/-- The first product into the zero block, at (r, c): the sum over the 128 packed input lanes. -/
private theorem mm_a_apply (a : FVec Ideal S4096x128 .bf16) (b : FVec Ideal S128x256 .bf16) (r : Fin 4096) (c : Fin 256) :
    matmul dot_S4096x128_S128x256_S4096x256_1_0_0_1_n_n none a b (constant (F := Ideal) S4096x256 .f32 0x00000000#32) (ix2 r c)
      = ∑ k : Fin 128, a (ix2 r k) * b (ix2 k c) := by
  show FloatOps.matmul dot_S4096x128_S128x256_S4096x256_1_0_0_1_n_n none a b (constant (F := Ideal) S4096x256 .f32 0x00000000#32) (ix2 r c) = _
  rw [Ideal.matmul_constant_zero_apply, ← Equiv.sum_comp (contrEquiv1 dot_S4096x128_S128x256_S4096x256_1_0_0_1_n_n 128 rfl rfl).symm]
  refine Finset.sum_congr rfl fun k _ => ?_
  have hk := contrEquiv1_symm_val dot_S4096x128_S128x256_S4096x256_1_0_0_1_n_n 128 rfl rfl k
  have el : dot_S4096x128_S128x256_S4096x256_1_0_0_1_n_n.lhsIdx (ix2 r c) ((contrEquiv1 dot_S4096x128_S128x256_S4096x256_1_0_0_1_n_n 128 rfl rfl).symm k) = ix2 r k := funext fun ax => Fin.ext (by
    match ax with
    | ⟨0, _⟩ => exact lhs_a_0 _ _
    | ⟨1, _⟩ => exact (lhs_a_1 _ _).trans hk)
  have er : dot_S4096x128_S128x256_S4096x256_1_0_0_1_n_n.rhsIdx (ix2 r c) ((contrEquiv1 dot_S4096x128_S128x256_S4096x256_1_0_0_1_n_n 128 rfl rfl).symm k) = ix2 k c := funext fun ax => Fin.ext (by
    match ax with
    | ⟨0, _⟩ => exact (rhs_a_0 _ _).trans hk
    | ⟨1, _⟩ => exact rhs_a_1 _ _)
  rw [el, er]

/-- The left operand's row coordinate is the output's row. -/
private theorem lhs_b_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
/-- The left operand's column coordinate is the contracted one. -/
private theorem lhs_b_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
/-- The right operand's row coordinate is the contracted one. -/
private theorem rhs_b_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
/-- The right operand's column coordinate is the output's column. -/
private theorem rhs_b_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- The second product into the zero block, at (r, c): the sum over the 256 packed hidden lanes. -/
private theorem mm_b_apply (a : FVec Ideal S4096x256 .bf16) (b : FVec Ideal S256x256 .bf16) (r : Fin 4096) (c : Fin 256) :
    matmul dot_S4096x256_S256x256_S4096x256_1_0_0_1_n_n none a b (constant (F := Ideal) S4096x256 .f32 0x00000000#32) (ix2 r c)
      = ∑ k : Fin 256, a (ix2 r k) * b (ix2 k c) := by
  show FloatOps.matmul dot_S4096x256_S256x256_S4096x256_1_0_0_1_n_n none a b (constant (F := Ideal) S4096x256 .f32 0x00000000#32) (ix2 r c) = _
  rw [Ideal.matmul_constant_zero_apply, ← Equiv.sum_comp (contrEquiv1 dot_S4096x256_S256x256_S4096x256_1_0_0_1_n_n 256 rfl rfl).symm]
  refine Finset.sum_congr rfl fun k _ => ?_
  have hk := contrEquiv1_symm_val dot_S4096x256_S256x256_S4096x256_1_0_0_1_n_n 256 rfl rfl k
  have el : dot_S4096x256_S256x256_S4096x256_1_0_0_1_n_n.lhsIdx (ix2 r c) ((contrEquiv1 dot_S4096x256_S256x256_S4096x256_1_0_0_1_n_n 256 rfl rfl).symm k) = ix2 r k := funext fun ax => Fin.ext (by
    match ax with
    | ⟨0, _⟩ => exact lhs_b_0 _ _
    | ⟨1, _⟩ => exact (lhs_b_1 _ _).trans hk)
  have er : dot_S4096x256_S256x256_S4096x256_1_0_0_1_n_n.rhsIdx (ix2 r c) ((contrEquiv1 dot_S4096x256_S256x256_S4096x256_1_0_0_1_n_n 256 rfl rfl).symm k) = ix2 k c := funext fun ax => Fin.ext (by
    match ax with
    | ⟨0, _⟩ => exact (rhs_b_0 _ _).trans hk
    | ⟨1, _⟩ => exact rhs_b_1 _ _)
  rw [el, er]

/-- The left operand's row coordinate is the output's row. -/
private theorem lhs_c_0 (i : S4096x16.Idx) (q : dot_S4096x256_S256x16_S4096x16_1_0_0_1_n_n.contr.Idx) :
    (dot_S4096x256_S256x16_S4096x16_1_0_0_1_n_n.lhsIdx i q 0).val = (i 0).val := by
  unfold DotDims.lhsIdx
  rw [dif_neg (show ¬(0 : Fin S4096x256.rank) ∈ dot_S4096x256_S256x16_S4096x16_1_0_0_1_n_n.lhsBatch by decide), dif_pos (show (0 : Fin S4096x256.rank) ∈ dot_S4096x256_S256x16_S4096x16_1_0_0_1_n_n.lhsNonContracting by decide)]
  rfl
/-- The left operand's column coordinate is the contracted one. -/
private theorem lhs_c_1 (i : S4096x16.Idx) (q : dot_S4096x256_S256x16_S4096x16_1_0_0_1_n_n.contr.Idx) :
    (dot_S4096x256_S256x16_S4096x16_1_0_0_1_n_n.lhsIdx i q 1).val = (q ⟨0, by decide⟩).val :=
  dot_S4096x256_S256x16_S4096x16_1_0_0_1_n_n.lhsIdx_val_of_single rfl i q
/-- The right operand's row coordinate is the contracted one. -/
private theorem rhs_c_0 (i : S4096x16.Idx) (q : dot_S4096x256_S256x16_S4096x16_1_0_0_1_n_n.contr.Idx) :
    (dot_S4096x256_S256x16_S4096x16_1_0_0_1_n_n.rhsIdx i q 0).val = (q ⟨0, by decide⟩).val :=
  dot_S4096x256_S256x16_S4096x16_1_0_0_1_n_n.rhsIdx_val_of_single rfl i q
/-- The right operand's column coordinate is the output's column. -/
private theorem rhs_c_1 (i : S4096x16.Idx) (q : dot_S4096x256_S256x16_S4096x16_1_0_0_1_n_n.contr.Idx) :
    (dot_S4096x256_S256x16_S4096x16_1_0_0_1_n_n.rhsIdx i q 1).val = (i 1).val := by
  unfold DotDims.rhsIdx
  rw [dif_neg (show ¬(1 : Fin S256x16.rank) ∈ dot_S4096x256_S256x16_S4096x16_1_0_0_1_n_n.rhsBatch by decide), dif_pos (show (1 : Fin S256x16.rank) ∈ dot_S4096x256_S256x16_S4096x16_1_0_0_1_n_n.rhsNonContracting by decide)]
  rfl

/-- The third product into the zero block, at (r, c): the sum over the 256 packed hidden lanes. -/
private theorem mm_c_apply (a : FVec Ideal S4096x256 .bf16) (b : FVec Ideal S256x16 .bf16) (r : Fin 4096) (c : Fin 16) :
    matmul dot_S4096x256_S256x16_S4096x16_1_0_0_1_n_n none a b (constant (F := Ideal) S4096x16 .f32 0x00000000#32) (ix2 r c)
      = ∑ k : Fin 256, a (ix2 r k) * b (ix2 k c) := by
  show FloatOps.matmul dot_S4096x256_S256x16_S4096x16_1_0_0_1_n_n none a b (constant (F := Ideal) S4096x16 .f32 0x00000000#32) (ix2 r c) = _
  rw [Ideal.matmul_constant_zero_apply, ← Equiv.sum_comp (contrEquiv1 dot_S4096x256_S256x16_S4096x16_1_0_0_1_n_n 256 rfl rfl).symm]
  refine Finset.sum_congr rfl fun k _ => ?_
  have hk := contrEquiv1_symm_val dot_S4096x256_S256x16_S4096x16_1_0_0_1_n_n 256 rfl rfl k
  have el : dot_S4096x256_S256x16_S4096x16_1_0_0_1_n_n.lhsIdx (ix2 r c) ((contrEquiv1 dot_S4096x256_S256x16_S4096x16_1_0_0_1_n_n 256 rfl rfl).symm k) = ix2 r k := funext fun ax => Fin.ext (by
    match ax with
    | ⟨0, _⟩ => exact lhs_c_0 _ _
    | ⟨1, _⟩ => exact (lhs_c_1 _ _).trans hk)
  have er : dot_S4096x256_S256x16_S4096x16_1_0_0_1_n_n.rhsIdx (ix2 r c) ((contrEquiv1 dot_S4096x256_S256x16_S4096x16_1_0_0_1_n_n 256 rfl rfl).symm k) = ix2 k c := funext fun ax => Fin.ext (by
    match ax with
    | ⟨0, _⟩ => exact (rhs_c_0 _ _).trans hk
    | ⟨1, _⟩ => exact rhs_c_1 _ _)
  rw [el, er]

/-! ## The broadcast bias rows read at an entry -/

/-- The 256-wide bias row broadcast down the 4096 rows reads, at (r, c), the row's entry at c. -/
private theorem bias256_apply (b : FVec Ideal S1x256 .f32) (r : Fin 4096) (c : Fin 256) :
    broadcastTo S4096x256 b broadcasts_S1x256_S4096x256 (ix2 r c) = b (ix2 0 c) :=
  broadcastTo_1b_ab_apply b broadcasts_S1x256_S4096x256 r c

/-- The 16-wide bias row broadcast down the 4096 rows reads, at (r, c), the row's entry at c. -/
private theorem bias16_apply (b : FVec Ideal S1x16 .f32) (r : Fin 4096) (c : Fin 16) :
    broadcastTo S4096x16 b broadcasts_S1x16_S4096x16 (ix2 r c) = b (ix2 0 c) :=
  broadcastTo_1b_ab_apply b broadcasts_S1x16_S4096x16 r c

/-! ## One hidden layer read at an entry

A hidden layer is a product into the zero block, plus the broadcast bias row, floored at the broadcast zero; the change
of float format after it is the identity on the extended reals. -/

/-- The first hidden layer at (r, c): the floor at zero of the sum over the input lanes plus the bias entry at c. -/
private theorem layer_a_apply (a : FVec Ideal S4096x128 .bf16) (w : FVec Ideal S128x256 .bf16) (b : FVec Ideal S1x256 .f32)
    (r : Fin 4096) (c : Fin 256) :
    (truncf .bf16 (maximumf (addf (matmul dot_S4096x128_S128x256_S4096x256_1_0_0_1_n_n none a w (constant (F := Ideal) S4096x256 .f32 0x00000000#32))
          (broadcastTo S4096x256 b broadcasts_S1x256_S4096x256))
        (broadcast S4096x256 (Scalar.ofBits (F := Ideal) .f32 0x00000000#32))) bitsLt_bf16_f32 : FVec Ideal S4096x256 .bf16) (ix2 r c)
      = Cert.Mlp.relu ((∑ k : Fin 128, a (ix2 r k) * w (ix2 k c)) + b (ix2 0 c)) := by
  refine (truncf_apply (ψ := .bf16) _ bitsLt_bf16_f32 _).trans ((maximumf_apply _ _ _).trans ?_)
  rw [addf_apply, mm_a_apply, bias256_apply]
  rfl

/-- The second hidden layer at (r, c): the floor at zero of the sum over the hidden lanes plus the bias entry at c. -/
private theorem layer_b_apply (a : FVec Ideal S4096x256 .bf16) (w : FVec Ideal S256x256 .bf16) (b : FVec Ideal S1x256 .f32)
    (r : Fin 4096) (c : Fin 256) :
    (truncf .bf16 (maximumf (addf (matmul dot_S4096x256_S256x256_S4096x256_1_0_0_1_n_n none a w (constant (F := Ideal) S4096x256 .f32 0x00000000#32))
          (broadcastTo S4096x256 b broadcasts_S1x256_S4096x256))
        (broadcast S4096x256 (Scalar.ofBits (F := Ideal) .f32 0x00000000#32))) bitsLt_bf16_f32 : FVec Ideal S4096x256 .bf16) (ix2 r c)
      = Cert.Mlp.relu ((∑ k : Fin 256, a (ix2 r k) * w (ix2 k c)) + b (ix2 0 c)) := by
  refine (truncf_apply (ψ := .bf16) _ bitsLt_bf16_f32 _).trans ((maximumf_apply _ _ _).trans ?_)
  rw [addf_apply, mm_b_apply, bias256_apply]
  rfl

/-- The stored value at (r, c), from the seven loaded blocks' entries: three nested sums over the packed axes. -/
theorem pay_apply (x : Vec Ideal S4096x128 .f32) (w0 : Vec Ideal S128x256 .bf16) (b0 : Vec Ideal S1x256 .f32)
    (w1 : Vec Ideal S256x256 .bf16) (b1 : Vec Ideal S1x256 .f32) (w2 : Vec Ideal S256x16 .bf16) (b2 : Vec Ideal S1x16 .f32)
    (r : Fin 4096) (c : Fin 16) :
    (k0_pay1 (F := Ideal) x w0 b0 w1 b1 w2 b2 (ix2 r c) : EReal)
      = (∑ l2 : Fin 256,
          Cert.Mlp.relu ((∑ l1 : Fin 256,
              Cert.Mlp.relu ((∑ l : Fin 128, (x (ix2 r l) : EReal) * (w0 (ix2 l l1) : EReal)) + (b0 (ix2 0 l1) : EReal))
                * (w1 (ix2 l1 l2) : EReal)) + (b1 (ix2 0 l2) : EReal))
            * (w2 (ix2 l2 c) : EReal)) + (b2 (ix2 0 c) : EReal) := by
  unfold k0_pay1
  simp only [shapeCast_self]
  -- the last addition: the third product at (r, c) plus the last bias row's entry at c
  refine (addf_apply _ _ _).trans ?_
  rw [mm_c_apply, bias16_apply]
  -- under the outer sum, the left factor is the second hidden layer at (r, l2)
  refine congrArg (· + _) (Finset.sum_congr rfl fun l2 _ => congrArg (· * _) ?_)
  refine (layer_b_apply _ _ _ r l2).trans ?_
  -- under the middle sum, the left factor is the first hidden layer at (r, l1); the input's change of format is the identity
  refine congrArg (fun s => Cert.Mlp.relu (s + _)) (Finset.sum_congr rfl fun l1 _ => congrArg (· * _) ?_)
  exact layer_a_apply _ _ _ r l1

end Cert.KernelIdeal.Payload

end
-- ==== Proof.PackedAlgebra.lean ====
/-
  Three packed layers are the plain three-layer function.

  Fix a packed row R: it holds the original rows 4R, 4R + 1, 4R + 2, 4R + 3 side by side, entry l being entry l mod 32 of
  original row 4R + l / 32. Let the packed weights be block diagonal: entry (l, col) of the first is W0 (col mod 64, l mod 32)
  when l / 32 = col / 64 and zero otherwise, and likewise the second (64 | 64) and the third (64 | 4); let the packed
  biases repeat the biases. Then, layer by layer, column 64·p + j of a packed layer is entry j of the plain layer of original
  row 4R + p: in the packed sum only the entries of original row p's own band carry a non-zero weight, every other
  term is a product with zero, and the band's entries are the plain layer's terms in order. Applied three times, entry
  4·p + o of the packed result row is entry o of the perceptron's result at row 4R + p.
-/
import proofs.«419429_j84052509982983_3_alg».proof.Proof.MlpSpec

noncomputable section

namespace Cert.Mlp

/-- The position of entry q of band p when bands of width n lie side by side in a row of N entries. -/
def bandEmb (n N : ℕ) (p : ℕ) (h : n * p + n ≤ N) (q : Fin n) : Fin N := ⟨n * p + q.val, by have := q.isLt; omega⟩

theorem bandEmb_inj (n N p : ℕ) (h : n * p + n ≤ N) : Function.Injective (bandEmb n N p h) := fun a b e => by
  have := congrArg Fin.val e
  simp only [bandEmb] at this
  exact Fin.ext (by omega)

/-- An entry of the packed row outside band p is in another band. -/
theorem not_band (n N p : ℕ) (hn : 0 < n) (h : n * p + n ≤ N) (l : Fin N) (hl : ∀ q, bandEmb n N p h q ≠ l) : l.val / n ≠ p := by
  intro e
  have hlt : l.val % n < n := Nat.mod_lt _ hn
  refine hl ⟨l.val % n, hlt⟩ (Fin.ext ?_)
  simp only [bandEmb]
  have := Nat.div_add_mod l.val n
  rw [e] at this
  omega

section Packed

variable (x : Fin 2097152 → Fin 32 → EReal) (W0 : Fin 64 → Fin 32 → EReal) (b0 : Fin 64 → EReal)
  (W1 : Fin 64 → Fin 64 → EReal) (b1 : Fin 64 → EReal) (W2 : Fin 4 → Fin 64 → EReal) (b2 : Fin 4 → EReal)
  (R : Fin 524288)
  (X : Fin 128 → EReal) (A0 : Fin 128 → Fin 256 → EReal) (B0 : Fin 256 → EReal)
  (A1 : Fin 256 → Fin 256 → EReal) (B1 : Fin 256 → EReal) (A2 : Fin 256 → Fin 16 → EReal) (B2 : Fin 16 → EReal)

/-- The original row that band p of packed row R holds. -/
def origRow (p : ℕ) (hp : p < 4) : Fin 2097152 := ⟨4 * R.val + p, by have := R.isLt; omega⟩

/-- First packed layer: column l1 is entry l1 mod 64 of the first hidden layer of original row 4R + l1 / 64. -/
theorem packed_hidden0
    (hX : ∀ l : Fin 128, X l = x (origRow R (l.val / 32) (by have := l.isLt; omega)) ⟨l.val % 32, Nat.mod_lt _ (by decide)⟩)
    (hA0 : ∀ (l : Fin 128) (col : Fin 256), A0 l col
      = if l.val / 32 = col.val / 64 then W0 ⟨col.val % 64, Nat.mod_lt _ (by decide)⟩ ⟨l.val % 32, Nat.mod_lt _ (by decide)⟩ else 0)
    (hB0 : ∀ col : Fin 256, B0 col = b0 ⟨col.val % 64, Nat.mod_lt _ (by decide)⟩) (l1 : Fin 256) :
    relu ((∑ l : Fin 128, X l * A0 l l1) + B0 l1)
      = hidden0 x W0 b0 (origRow R (l1.val / 64) (by have := l1.isLt; omega)) ⟨l1.val % 64, Nat.mod_lt _ (by decide)⟩ := by
  have hp : l1.val / 64 < 4 := by have := l1.isLt; omega
  have hband : 32 * (l1.val / 64) + 32 ≤ 128 := by omega
  unfold hidden0
  refine congrArg relu ?_
  refine packed_layer X A0 B0 (x (origRow R (l1.val / 64) hp)) W0 b0 l1 ⟨l1.val % 64, Nat.mod_lt _ (by decide)⟩
    (bandEmb 32 128 (l1.val / 64) hband) (bandEmb_inj _ _ _ _) (fun q => ?_) (fun q => ?_) (fun l hl => ?_) (hB0 l1)
  · have hq := q.isLt
    rw [hX]
    have e1 : (bandEmb 32 128 (l1.val / 64) hband q).val / 32 = l1.val / 64 := by simp only [bandEmb]; omega
    have e2 : (bandEmb 32 128 (l1.val / 64) hband q).val % 32 = q.val := by simp only [bandEmb]; omega
    congr 1
    · exact Fin.ext (by simp only [origRow]; omega)
    · exact Fin.ext e2
  · have hq := q.isLt
    rw [hA0]
    have e1 : (bandEmb 32 128 (l1.val / 64) hband q).val / 32 = l1.val / 64 := by simp only [bandEmb]; omega
    have e2 : (bandEmb 32 128 (l1.val / 64) hband q).val % 32 = q.val := by simp only [bandEmb]; omega
    rw [if_pos e1]
    congr 1
    exact Fin.ext e2
  · rw [hA0, if_neg (not_band 32 128 _ (by decide) hband l hl)]

/-- Second packed layer, over the first's columns. -/
theorem packed_hidden1 (H0 : Fin 256 → EReal)
    (hH0 : ∀ l1 : Fin 256, H0 l1 = hidden0 x W0 b0 (origRow R (l1.val / 64) (by have := l1.isLt; omega)) ⟨l1.val % 64, Nat.mod_lt _ (by decide)⟩)
    (hA1 : ∀ (l : Fin 256) (col : Fin 256), A1 l col
      = if l.val / 64 = col.val / 64 then W1 ⟨col.val % 64, Nat.mod_lt _ (by decide)⟩ ⟨l.val % 64, Nat.mod_lt _ (by decide)⟩ else 0)
    (hB1 : ∀ col : Fin 256, B1 col = b1 ⟨col.val % 64, Nat.mod_lt _ (by decide)⟩) (l2 : Fin 256) :
    relu ((∑ l1 : Fin 256, H0 l1 * A1 l1 l2) + B1 l2)
      = hidden1 x W0 b0 W1 b1 (origRow R (l2.val / 64) (by have := l2.isLt; omega)) ⟨l2.val % 64, Nat.mod_lt _ (by decide)⟩ := by
  have hp : l2.val / 64 < 4 := by have := l2.isLt; omega
  have hband : 64 * (l2.val / 64) + 64 ≤ 256 := by omega
  unfold hidden1
  refine congrArg relu ?_
  refine packed_layer H0 A1 B1 (hidden0 x W0 b0 (origRow R (l2.val / 64) hp)) W1 b1 l2 ⟨l2.val % 64, Nat.mod_lt _ (by decide)⟩
    (bandEmb 64 256 (l2.val / 64) hband) (bandEmb_inj _ _ _ _) (fun q => ?_) (fun q => ?_) (fun l hl => ?_) (hB1 l2)
  · have hq := q.isLt
    rw [hH0]
    have e1 : (bandEmb 64 256 (l2.val / 64) hband q).val / 64 = l2.val / 64 := by simp only [bandEmb]; omega
    have e2 : (bandEmb 64 256 (l2.val / 64) hband q).val % 64 = q.val := by simp only [bandEmb]; omega
    congr 1
    · exact Fin.ext (by simp only [origRow]; omega)
    · exact Fin.ext e2
  · have hq := q.isLt
    rw [hA1]
    have e1 : (bandEmb 64 256 (l2.val / 64) hband q).val / 64 = l2.val / 64 := by simp only [bandEmb]; omega
    have e2 : (bandEmb 64 256 (l2.val / 64) hband q).val % 64 = q.val := by simp only [bandEmb]; omega
    rw [if_pos e1]
    congr 1
    exact Fin.ext e2
  · rw [hA1, if_neg (not_band 64 256 _ (by decide) hband l hl)]

/-- Third packed layer: column cc is entry cc mod 4 of the result of original row 4R + cc / 4. -/
theorem packed_out (H1 : Fin 256 → EReal)
    (hH1 : ∀ l2 : Fin 256, H1 l2 = hidden1 x W0 b0 W1 b1 (origRow R (l2.val / 64) (by have := l2.isLt; omega)) ⟨l2.val % 64, Nat.mod_lt _ (by decide)⟩)
    (hA2 : ∀ (l : Fin 256) (col : Fin 16), A2 l col
      = if l.val / 64 = col.val / 4 then W2 ⟨col.val % 4, Nat.mod_lt _ (by decide)⟩ ⟨l.val % 64, Nat.mod_lt _ (by decide)⟩ else 0)
    (hB2 : ∀ col : Fin 16, B2 col = b2 ⟨col.val % 4, Nat.mod_lt _ (by decide)⟩) (cc : Fin 16) :
    (∑ l2 : Fin 256, H1 l2 * A2 l2 cc) + B2 cc
      = result x W0 b0 W1 b1 W2 b2 (origRow R (cc.val / 4) (by have := cc.isLt; omega)) ⟨cc.val % 4, Nat.mod_lt _ (by decide)⟩ := by
  have hp : cc.val / 4 < 4 := by have := cc.isLt; omega
  have hband : 64 * (cc.val / 4) + 64 ≤ 256 := by omega
  unfold result
  refine packed_layer H1 A2 B2 (hidden1 x W0 b0 W1 b1 (origRow R (cc.val / 4) hp)) W2 b2 cc ⟨cc.val % 4, Nat.mod_lt _ (by decide)⟩
    (bandEmb 64 256 (cc.val / 4) hband) (bandEmb_inj _ _ _ _) (fun q => ?_) (fun q => ?_) (fun l hl => ?_) (hB2 cc)
  · have hq := q.isLt
    rw [hH1]
    have e1 : (bandEmb 64 256 (cc.val / 4) hband q).val / 64 = cc.val / 4 := by simp only [bandEmb]; omega
    have e2 : (bandEmb 64 256 (cc.val / 4) hband q).val % 64 = q.val := by simp only [bandEmb]; omega
    congr 1
    · exact Fin.ext (by simp only [origRow]; omega)
    · exact Fin.ext e2
  · have hq := q.isLt
    rw [hA2]
    have e1 : (bandEmb 64 256 (cc.val / 4) hband q).val / 64 = cc.val / 4 := by simp only [bandEmb]; omega
    have e2 : (bandEmb 64 256 (cc.val / 4) hband q).val % 64 = q.val := by simp only [bandEmb]; omega
    rw [if_pos e1]
    congr 1
    exact Fin.ext e2
  · rw [hA2, if_neg (not_band 64 256 _ (by decide) hband l hl)]

/-- THE THREE TOGETHER: the packed program's nested sums at column cc of packed row R are the perceptron's result at
    original row 4R + cc / 4, output cc mod 4. -/
theorem packed_result
    (hX : ∀ l : Fin 128, X l = x (origRow R (l.val / 32) (by have := l.isLt; omega)) ⟨l.val % 32, Nat.mod_lt _ (by decide)⟩)
    (hA0 : ∀ (l : Fin 128) (col : Fin 256), A0 l col
      = if l.val / 32 = col.val / 64 then W0 ⟨col.val % 64, Nat.mod_lt _ (by decide)⟩ ⟨l.val % 32, Nat.mod_lt _ (by decide)⟩ else 0)
    (hB0 : ∀ col : Fin 256, B0 col = b0 ⟨col.val % 64, Nat.mod_lt _ (by decide)⟩)
    (hA1 : ∀ (l : Fin 256) (col : Fin 256), A1 l col
      = if l.val / 64 = col.val / 64 then W1 ⟨col.val % 64, Nat.mod_lt _ (by decide)⟩ ⟨l.val % 64, Nat.mod_lt _ (by decide)⟩ else 0)
    (hB1 : ∀ col : Fin 256, B1 col = b1 ⟨col.val % 64, Nat.mod_lt _ (by decide)⟩)
    (hA2 : ∀ (l : Fin 256) (col : Fin 16), A2 l col
      = if l.val / 64 = col.val / 4 then W2 ⟨col.val % 4, Nat.mod_lt _ (by decide)⟩ ⟨l.val % 64, Nat.mod_lt _ (by decide)⟩ else 0)
    (hB2 : ∀ col : Fin 16, B2 col = b2 ⟨col.val % 4, Nat.mod_lt _ (by decide)⟩) (cc : Fin 16) :
    (∑ l2 : Fin 256, relu ((∑ l1 : Fin 256, relu ((∑ l : Fin 128, X l * A0 l l1) + B0 l1) * A1 l1 l2) + B1 l2) * A2 l2 cc) + B2 cc
      = result x W0 b0 W1 b1 W2 b2 (origRow R (cc.val / 4) (by have := cc.isLt; omega)) ⟨cc.val % 4, Nat.mod_lt _ (by decide)⟩ :=
  packed_out x W0 b0 W1 b1 W2 b2 R A2 B2 _
    (fun l2 => packed_hidden1 x W0 b0 W1 b1 R A1 B1 _ (fun l1 => packed_hidden0 x W0 b0 R X A0 B0 hX hA0 hB0 l1) hA1 hB1 l2)
    hA2 hB2 cc

end Packed

end Cert.Mlp

end
-- ==== Proof.KernelValue.lean ====
/-
  The kernel's result array as ONE function of @main's arguments.

  At grid point t the region's body is handed rows 4096·t … 4096·t + 4095 of the packed input (block index (t, 0)) and the
  six small operands whole (block index (0, 0)), and what it leaves in the output buffer is written back as rows
  4096·t … of the packed result. Entry (r, q) of that buffer is the body's arithmetic at (r, q): three nested sums
  over the packed axes of the blocks' entries, which are entries of the packed input's row 4096·t + r and of the
  block-diagonal weights and tiled biases; by the packed-layers law that is the perceptron's result at original row
  4·(4096·t + r) + q / 4, output q mod 4. So every point writes back ITS BLOCK of one function of the whole packed array,
  the 128 blocks tile the array, and the array ends holding that function. The reshape after the region reads it
  row-major as 2097152 × 4: entry (i, o) sits at packed row i / 4, column 4·(i mod 4) + o, whose value is the
  perceptron's result at row i, output o.
-/
import proofs.«419429_j84052509982983_3_alg».proof.Proof.KernelIdealRun
import proofs.«419429_j84052509982983_3_alg».proof.Proof.KernelArgs
import proofs.«419429_j84052509982983_3_alg».proof.Proof.KernelOperands
import proofs.«419429_j84052509982983_3_alg».proof.Proof.KernelWeights
import proofs.«419429_j84052509982983_3_alg».proof.Proof.KernelPayload
import proofs.«419429_j84052509982983_3_alg».proof.Proof.PackedAlgebra
import Idealize.ShloMosaic.Lib.ValueIdx
import Idealize.ShloMosaic.Lib.Pipeline.Value
import Idealize.ShloMosaic.Lib.StableHlo.Run

set_option maxRecDepth 16384

noncomputable section

namespace Cert.KernelIdeal.Result

open Cert.KernelIdeal Cert.KernelIdeal.Gen Cert.KernelIdeal.Packed Cert.KernelIdeal.Operands
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The arguments by coordinates, and the function the packed result holds -/

abbrev aX (c : Dev nD) : Fin 2097152 → Fin 32 → EReal := fun a b => argX m c (ix2 a b)
abbrev aW0 (c : Dev nD) : Fin 64 → Fin 32 → EReal := fun a b => argW0 m c (ix2 a b)
abbrev aB0 (c : Dev nD) : Fin 64 → EReal := fun a => argB0 m c (ix1 a)
abbrev aW1 (c : Dev nD) : Fin 64 → Fin 64 → EReal := fun a b => argW1 m c (ix2 a b)
abbrev aB1 (c : Dev nD) : Fin 64 → EReal := fun a => argB1 m c (ix1 a)
abbrev aW2 (c : Dev nD) : Fin 4 → Fin 64 → EReal := fun a b => argW2 m c (ix2 a b)
abbrev aB2 (c : Dev nD) : Fin 4 → EReal := fun a => argB2 m c (ix1 a)

/-- The perceptron's result of core `c`'s arguments, by row and output. -/
abbrev mlp (c : Dev nD) : Fin 2097152 → Fin 4 → EReal :=
  Cert.Mlp.result (aX m c) (aW0 m c) (aB0 m c) (aW1 m c) (aB1 m c) (aW2 m c) (aB2 m c)

/-- What the packed result array holds: at packed row R and column q, the result at original row 4R + q / 4, output q mod 4. -/
def packedG (c : Dev nD) : S524288x16.Idx → EReal := fun i =>
  mlp m c (Cert.Mlp.origRow ⟨(i 0).val, idx2_lt0 i⟩ ((i 1).val / 4) (by have := idx2_lt1 i; omega)) ⟨(i 1).val % 4, Nat.mod_lt _ (by decide)⟩

/-! ## Where each window's block lies -/

theorem hz : (![0, 0] : Fin 2 → Nat) = fun _ => 0 := funext fun a => by fin_cases a <;> rfl

/-- The printed index maps, decided over the 128 points: the packed input's and the result's block index is (t, 0), the
    six small operands' is (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem point_lt (t : Fin cfg0.N) : t.val < 128 := Nat.lt_of_lt_of_eq t.isLt N_0

/-- The packed row that row r of point t's block is. -/
def rowAt (t : Fin cfg0.N) (r : Fin 4096) : Fin 524288 := ⟨4096 * t.val + r.val, by have := point_lt t; have := r.isLt; omega⟩

/-- Point t's block of the packed input is rows 4096·t … of the packed input. -/
theorem xblk_apply (c : Dev nD) (t : Fin cfg0.N) (r : Fin 4096) (l : Fin 128) :
    (iblk m c 0 t : S4096x128.Idx → EReal) (ix2 r l) = (V m c main_v0 : S524288x128.Idx → EReal) (ix2 (rowAt t r) l) := by
  obtain ⟨e0, e1, -⟩ := idx_facts t
  show (V m c main_v0 : S524288x128.Idx → EReal) (((cfg0.win 0).blk t).view.emb (ix2 r l)) = _
  refine congrArg _ (funext fun a => Fin.ext ?_)
  match a with
  | ⟨0, _⟩ => show win0_0.index t (0 : Fin 2) * 4096 + 1 * r.val = 4096 * t.val + r.val; omega
  | ⟨1, _⟩ => show win0_0.index t (1 : Fin 2) * 128 + 1 * l.val = l.val; omega

/-- Each small operand's block, at every point, is the whole operand. -/
theorem w0blk_apply (c : Dev nD) (t : Fin cfg0.N) (y : S128x256.Idx) :
    (iblk m c 1 t : S128x256.Idx → EReal) y = (V m c main_v8 : S128x256.Idx → EReal) y := by
  obtain ⟨-, -, e0, e1, -⟩ := idx_facts t
  show (V m c main_v8 : S128x256.Idx → EReal) (((cfg0.win 1).blk t).view.emb y) = _
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 256 + 1 * (y 1).val = (y 1).val; omega
theorem b0blk_apply (c : Dev nD) (t : Fin cfg0.N) (y : S1x256.Idx) :
    (iblk m c 2 t : S1x256.Idx → EReal) y = (V m c main_v28 : S1x256.Idx → EReal) y := by
  obtain ⟨-, -, -, -, e0, e1, -⟩ := idx_facts t
  show (V m c main_v28 : S1x256.Idx → EReal) (((cfg0.win 2).blk t).view.emb y) = _
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 256 + 1 * (y 1).val = (y 1).val; omega
theorem w1blk_apply (c : Dev nD) (t : Fin cfg0.N) (y : S256x256.Idx) :
    (iblk m c 3 t : S256x256.Idx → EReal) y = (V m c main_v16 : S256x256.Idx → EReal) y := by
  obtain ⟨-, -, -, -, -, -, e0, e1, -⟩ := idx_facts t
  show (V m c main_v16 : S256x256.Idx → EReal) (((cfg0.win 3).blk t).view.emb y) = _
  refine congrArg _ (funext fun a => Fin.ext ?_)
  match a with
  | ⟨0, _⟩ => show win0_3.index t (0 : Fin 2) * 256 + 1 * (y 0).val = (y 0).val; omega
  | ⟨1, _⟩ => show win0_3.index t (1 : Fin 2) * 256 + 1 * (y 1).val = (y 1).val; omega
theorem b1blk_apply (c : Dev nD) (t : Fin cfg0.N) (y : S1x256.Idx) :
    (iblk m c 4 t : S1x256.Idx → EReal) y = (V m c main_v32 : S1x256.Idx → EReal) y := by
  obtain ⟨-, -, -, -, -, -, -, -, e0, e1, -⟩ := idx_facts t
  show (V m c main_v32 : S1x256.Idx → EReal) (((cfg0.win 4).blk t).view.emb y) = _
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 256 + 1 * (y 1).val = (y 1).val; omega
theorem w2blk_apply (c : Dev nD) (t : Fin cfg0.N) (y : S256x16.Idx) :
    (iblk m c 5 t : S256x16.Idx → EReal) y = (V m c main_v24 : S256x16.Idx → EReal) y := by
  obtain ⟨-, -, -, -, -, -, -, -, -, -, e0, e1, -⟩ := idx_facts t
  show (V m c main_v24 : S256x16.Idx → EReal) (((cfg0.win 5).blk t).view.emb y) = _
  refine congrArg _ (funext fun a => Fin.ext ?_)
  match a with
  | ⟨0, _⟩ => show win0_5.index t (0 : Fin 2) * 256 + 1 * (y 0).val = (y 0).val; omega
  | ⟨1, _⟩ => show win0_5.index t (1 : Fin 2) * 16 + 1 * (y 1).val = (y 1).val; omega
theorem b2blk_apply (c : Dev nD) (t : Fin cfg0.N) (y : S1x16.Idx) :
    (iblk m c 6 t : S1x16.Idx → EReal) y = (V m c main_v36 : S1x16.Idx → EReal) y := by
  obtain ⟨-, -, -, -, -, -, -, -, -, -, -, -, e0, e1, -⟩ := idx_facts t
  show (V m c main_v36 : S1x16.Idx → EReal) (((cfg0.win 6).blk t).view.emb y) = _
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 16 + 1 * (y 1).val = (y 1).val; omega

/-- Where entry (r, q) of point t's output block lies in the packed result. -/
theorem oemb (t : Fin cfg0.N) (r : Fin 4096) (q : Fin 16) :
    ((cfg0.win 7).blk t).view.emb (ix2 r q) = (ix2 (rowAt t r) q : S524288x16.Idx) := by
  obtain ⟨-, -, -, -, -, -, -, -, -, -, -, -, -, -, e0, e1⟩ := idx_facts t
  refine funext fun a => Fin.ext ?_
  match a with
  | ⟨0, _⟩ => show win0_7.index t (0 : Fin 2) * 4096 + 1 * r.val = 4096 * t.val + r.val; omega
  | ⟨1, _⟩ => show win0_7.index t (1 : Fin 2) * 16 + 1 * q.val = q.val; omega

/-! ## What a point writes back -/

/-- The body's value at entry (r, q) of point t's block is the perceptron's result the packed array holds there. -/
theorem block_entry (c : Dev nD) (t : Fin cfg0.N) (r : Fin 4096) (q : Fin 16) :
    (k0_pay1 (F := Ideal) (iblk m c 0 t) (iblk m c 1 t) (iblk m c 2 t) (iblk m c 3 t) (iblk m c 4 t) (iblk m c 5 t) (iblk m c 6 t) (ix2 r q) : EReal)
      = packedG m c (ix2 (rowAt t r) q) := by
  rw [Cert.KernelIdeal.Payload.pay_apply]
  exact Cert.Mlp.packed_result (aX m c) (aW0 m c) (aB0 m c) (aW1 m c) (aB1 m c) (aW2 m c) (aB2 m c) (rowAt t r)
    (fun l => (iblk m c 0 t : S4096x128.Idx → EReal) (ix2 r l))
    (fun l col => (iblk m c 1 t : S128x256.Idx → EReal) (ix2 l col))
    (fun col => (iblk m c 2 t : S1x256.Idx → EReal) (ix2 0 col))
    (fun l col => (iblk m c 3 t : S256x256.Idx → EReal) (ix2 l col))
    (fun col => (iblk m c 4 t : S1x256.Idx → EReal) (ix2 0 col))
    (fun l col => (iblk m c 5 t : S256x16.Idx → EReal) (ix2 l col))
    (fun col => (iblk m c 6 t : S1x16.Idx → EReal) (ix2 0 col))
    (fun l => (xblk_apply m c t r l).trans (xp_apply m c (rowAt t r) l))
    (fun l col => (w0blk_apply m c t (ix2 l col)).trans (w0_apply m c l col))
    (fun col => (b0blk_apply m c t (ix2 0 col)).trans (b0_apply m c col))
    (fun l col => (w1blk_apply m c t (ix2 l col)).trans (w1_apply m c l col))
    (fun col => (b1blk_apply m c t (ix2 0 col)).trans (b1_apply m c col))
    (fun l col => (w2blk_apply m c t (ix2 l col)).trans (w2_apply m c l col))
    (fun col => (b2blk_apply m c t (ix2 0 col)).trans (b2_apply m c col)) q

/-- WHAT POINT t WRITES BACK is block t of `packedG`. -/
theorem flushed_eq (c : Dev nD) (t : Fin cfg0.N) :
    (dats m 0 c).flushed 7 t = ((cfg0.win 7).blk t).view.read (Elt Ideal) (packedG m c) := by
  show (cfg0.win 7).cut (grid0.coords t) ((dats m 0 c).after 7 t) = _
  rw [after7]
  unfold outBlock
  rw [View.canon_unit_zero hz]
  simp only [View.ld_unit_zero (S := S4096x128) hz, View.ld_unit_zero (S := S128x256) hz, View.ld_unit_zero (S := S1x256) hz,
    View.ld_unit_zero (S := S256x256) hz, View.ld_unit_zero (S := S256x16) hz, View.ld_unit_zero (S := S1x16) hz]
  funext j
  obtain ⟨r, q, rfl⟩ : ∃ (r : Fin 4096) (q : Fin 16), j = ix2 r q := ⟨j 0, j 1, eq_ix2 j⟩
  show (k0_pay1 (F := Ideal) (iblk m c 0 t) (iblk m c 1 t) (iblk m c 2 t) (iblk m c 3 t) (iblk m c 4 t) (iblk m c 5 t) (iblk m c 6 t) (ix2 r q) : EReal)
    = packedG m c (((cfg0.win 7).blk t).view.emb (ix2 r q))
  rw [oemb]
  exact block_entry m c t r q

/-! ## The cover, the packed result, the unpacked result -/

/-- An index of the packed result is in point t's block iff each coordinate is in the block's range on its axis. -/
theorem mem_blk (t : Fin cfg0.N) (i : S524288x16.Idx) :
    i ∈ ((cfg0.win 7).blk t).view.set ↔ ∀ a : Fin 2, win0_7.index t a * S4096x16.size a ≤ (i a).val ∧ (i a).val < win0_7.index t a * S4096x16.size a + S4096x16.size a := by
  show i ∈ ((View.whole main_v37).slice (win0_7.rect t)).set ↔ _
  rw [View.set_slice_whole, Rect.mem_set_unit]
  exact Iff.rfl

/-- Every entry of the packed result is in the block of the point its row falls in: row R is written at point R / 4096. -/
theorem cover (i : S524288x16.Idx) : ∃ t : Fin cfg0.N, (cfg0.win 7).flush t = true ∧ i ∈ ((cfg0.win 7).blk t).view.set := by
  have hi0 : (i 0).val < 524288 := idx2_lt0 i
  have hi1 : (i 1).val < 16 := idx2_lt1 i
  have hN : cfg0.N = 128 := N_0
  have hlt : (i 0).val / 4096 < cfg0.N := by rw [hN]; omega
  obtain ⟨-, -, -, -, -, -, -, -, -, -, -, -, -, -, e0, e1⟩ := idx_facts ⟨(i 0).val / 4096, hlt⟩
  refine ⟨⟨(i 0).val / 4096, hlt⟩, flush0_7 _, ?_⟩
  rw [mem_blk]
  intro a
  match a with
  | ⟨0, _⟩ =>
    show win0_7.index ⟨(i 0).val / 4096, hlt⟩ (0 : Fin 2) * 4096 ≤ (i 0).val ∧ (i 0).val < win0_7.index ⟨(i 0).val / 4096, hlt⟩ (0 : Fin 2) * 4096 + 4096
    rw [e0]
    show (i 0).val / 4096 * 4096 ≤ (i 0).val ∧ (i 0).val < (i 0).val / 4096 * 4096 + 4096
    omega
  | ⟨1, _⟩ =>
    show win0_7.index ⟨(i 0).val / 4096, hlt⟩ (1 : Fin 2) * 16 ≤ (i 1).val ∧ (i 1).val < win0_7.index ⟨(i 0).val / 4096, hlt⟩ (1 : Fin 2) * 16 + 16
    omega

/-- THE PACKED RESULT after the run. -/
theorem final (c : Dev nD) : (dats m 0 c).arrAt 7 cfg0.N = packedG m c :=
  (dats m 0 c).arrAt_eq_of_cover 7 (packedG m c) (fun t _ => flushed_eq m c t) cover

/-- THE UNPACKED RESULT: what the reshape after the region leaves in the result buffer is the perceptron's result, row
    by row. -/
theorem out_eq (c : Dev nD) :
    (Pipeline.afterTail₀ cfgs (dats m) 0 (V0 m) [hostOps1] c main_v38 : S2097152x4.Idx → EReal)
      = fun i => mlp m c ⟨(i 0).val, idx2_lt0 i⟩ ⟨(i 1).val, idx2_lt1 i⟩ := by
  unfold Pipeline.afterTail₀
  show StableHlo.after hostOps1 _ (Proc.devRef .tc main_v38) = _
  after_results
  have e : Pipeline.withArrays (cfgs 0).spec c (V0 m c) (fun w => (dats m 0 c).arrAt w (cfgs 0).N) (Proc.devRef .tc main_v37) = packedG m c :=
    (Pipeline.withArrays_arr spec0 launch0.win.arr_inj c (V0 m c) (fun w => (dats m 0 c).arrAt w cfg0.N) 7).trans (final m c)
  funext i
  obtain ⟨a, b, rfl⟩ : ∃ (a : Fin 2097152) (b : Fin 4), i = ix2 a b := ⟨i 0, i 1, eq_ix2 i⟩
  show shapeCast S2097152x4 (Pipeline.withArrays (cfgs 0).spec c (V0 m c) (fun w => (dats m 0 c).arrAt w (cfgs 0).N) (Proc.devRef .tc main_v37))
    shapeCasts_S524288x16_S2097152x4 (ix2 a b) = _
  rw [e]
  have ha := a.isLt
  have hb := b.isLt
  rw [shapeCast_apply (packedG m c) shapeCasts_S524288x16_S2097152x4 (ix2 a b)
    (ix2 (⟨a.val / 4, by omega⟩ : Fin 524288) (⟨4 * (a.val % 4) + b.val, by omega⟩ : Fin 16))
    (by rw [Shape.rowMajor_val_two, Shape.rowMajor_val_two]; show a.val / 4 * 16 + (4 * (a.val % 4) + b.val) = a.val * 4 + b.val; omega)]
  unfold packedG
  refine congr (congrArg (mlp m c) (Fin.ext ?_)) (Fin.ext ?_)
  · show 4 * (a.val / 4) + (4 * (a.val % 4) + b.val) / 4 = a.val; omega
  · show (4 * (a.val % 4) + b.val) % 4 = b.val; omega

end Cert.KernelIdeal.Result

end
-- ==== Proof.RefIsMlp.lean ====
/-
  The reference program's result, read at an index, is the three-layer function of MlpSpec.lean.

  The reference computes relu (x · W0ᵀ + b0), relu (· W1ᵀ + b1), (· W2ᵀ + b2) on whole arrays. Read at row r and
  column o, each matrix product is the sum over its one contracted axis of the left operand's row entry times the
  transposed weight's entry, which is the weight's entry with its coordinates swapped; each bias broadcast reads the bias
  at the column; each relu is the maximum with the broadcast zero word.
-/
import proofs.«419429_j84052509982983_3_alg».proof.Proof.Gen.ReferenceIdeal.Read
import proofs.«419429_j84052509982983_3_alg».proof.Proof.MlpSpec
import Idealize.ShloMosaic.Lib.ValueIdx
import Idealize.ShloMosaic.Lib.Pipeline.Value
import Idealize.ShloMosaic.PureOps.Ideal.Laws

noncomputable section

namespace Cert.ReferenceIdeal.IsMlp

open Cert.ReferenceIdeal Cert.ReferenceIdeal.Gen Idealize.ShloMosaic Idealize.ShloMosaic.TcCoe Idealize.ShloMosaic.ValueIdx

/-- The first hidden layer: the reference's first maximum at (r, j) is relu of the row-r entries times the
    transposed weight's entries (the weight at (j, k)) plus the bias at j. -/
private theorem ref_hidden0 (x0 : (⟨S2097152x32, .f32⟩ : BufTy).Contents (Elt Ideal)) (x1 : (⟨S64x32, .f32⟩ : BufTy).Contents (Elt Ideal))
    (x2 : (⟨S64, .f32⟩ : BufTy).Contents (Elt Ideal)) (r : Fin 2097152) (j : Fin 64) :
    Cert.ReferenceIdeal.Read.val_main_v5 (F := Ideal) x0 x1 x2 (ix2 r j)
      = Cert.Mlp.hidden0 (fun a b => (x0 (ix2 a b) : EReal)) (fun a b => (x1 (ix2 a b) : EReal)) (fun a => (x2 (ix1 a) : EReal)) r j := by
  rw [Read.val_main_v5_apply, Read.val_main_v4_apply, Read.val_main_v1_apply, Read.val_main_v3_apply, Read.val_main_v2_apply,
    Read.val_main_call0_v0_apply, Read.val_main_call0_cst_apply]
  simp only [Read.val_main_v0_apply]
  -- the left operand is read at (r, k); the transposed weight at (k, j) is the weight at (j, k); the bias broadcast
  -- twice, read at (r, j), is the bias at j
  have hl : ∀ k : Fin 32, Read.lidx_main_v1 (ix2 r j) k = ix2 r k := fun k =>
    funext fun a => by match a with | ⟨0, _⟩ => rfl | ⟨1, _⟩ => rfl
  have hr : ∀ k : Fin 32, Read.idx_main_v0 (Read.ridx_main_v1 (ix2 r j) k) = ix2 j k := fun k =>
    funext fun a => by match a with | ⟨0, _⟩ => rfl | ⟨1, _⟩ => rfl
  have hb : Read.idx_main_v2 (Read.idx_main_v3 (ix2 r j)) = ix1 j :=
    funext fun a => by match a with | ⟨0, _⟩ => rfl
  simp only [hl, hr, hb]
  rfl

/-- The second hidden layer: the reference's second maximum at (r, j) is relu of the first hidden layer's row-r
    entries times the second weight at (j, k), plus the second bias at j. -/
private theorem ref_hidden1 (x0 : (⟨S2097152x32, .f32⟩ : BufTy).Contents (Elt Ideal)) (x1 : (⟨S64x32, .f32⟩ : BufTy).Contents (Elt Ideal))
    (x2 : (⟨S64, .f32⟩ : BufTy).Contents (Elt Ideal)) (x3 : (⟨S64x64, .f32⟩ : BufTy).Contents (Elt Ideal))
    (x4 : (⟨S64, .f32⟩ : BufTy).Contents (Elt Ideal)) (r : Fin 2097152) (j : Fin 64) :
    Cert.ReferenceIdeal.Read.val_main_v11 (F := Ideal) x0 x1 x2 x3 x4 (ix2 r j)
      = Cert.Mlp.hidden1 (fun a b => (x0 (ix2 a b) : EReal)) (fun a b => (x1 (ix2 a b) : EReal)) (fun a => (x2 (ix1 a) : EReal))
          (fun a b => (x3 (ix2 a b) : EReal)) (fun a => (x4 (ix1 a) : EReal)) r j := by
  rw [Read.val_main_v11_apply, Read.val_main_v10_apply, Read.val_main_v7_apply, Read.val_main_v9_apply, Read.val_main_v8_apply,
    Read.val_main_call1_v0_apply, Read.val_main_call1_cst_apply]
  simp only [Read.val_main_v6_apply]
  -- the left operand is read at (r, k); the transposed weight at (k, j) is the weight at (j, k); the bias broadcast
  -- twice, read at (r, j), is the bias at j
  have hl : ∀ k : Fin 64, Read.lidx_main_v7 (ix2 r j) k = ix2 r k := fun k =>
    funext fun a => by match a with | ⟨0, _⟩ => rfl | ⟨1, _⟩ => rfl
  have hr : ∀ k : Fin 64, Read.idx_main_v6 (Read.ridx_main_v7 (ix2 r j) k) = ix2 j k := fun k =>
    funext fun a => by match a with | ⟨0, _⟩ => rfl | ⟨1, _⟩ => rfl
  have hb : Read.idx_main_v8 (Read.idx_main_v9 (ix2 r j)) = ix1 j :=
    funext fun a => by match a with | ⟨0, _⟩ => rfl
  simp only [hl, hr, hb, ref_hidden0]
  rfl

/-- The reference's last stage at (r, o) is the perceptron's result at row r, output o, of the argument arrays read
    by coordinates. -/
theorem ref_result (x0 : (⟨S2097152x32, .f32⟩ : BufTy).Contents (Elt Ideal)) (x1 : (⟨S64x32, .f32⟩ : BufTy).Contents (Elt Ideal))
    (x2 : (⟨S64, .f32⟩ : BufTy).Contents (Elt Ideal)) (x3 : (⟨S64x64, .f32⟩ : BufTy).Contents (Elt Ideal))
    (x4 : (⟨S64, .f32⟩ : BufTy).Contents (Elt Ideal)) (x5 : (⟨S4x64, .f32⟩ : BufTy).Contents (Elt Ideal))
    (x6 : (⟨S4, .f32⟩ : BufTy).Contents (Elt Ideal)) (r : Fin 2097152) (o : Fin 4) :
    Cert.ReferenceIdeal.Read.val_main_v16 (F := Ideal) x0 x1 x2 x3 x4 x5 x6 (ix2 r o)
      = Cert.Mlp.result (fun a b => (x0 (ix2 a b) : EReal)) (fun a b => (x1 (ix2 a b) : EReal)) (fun a => (x2 (ix1 a) : EReal))
          (fun a b => (x3 (ix2 a b) : EReal)) (fun a => (x4 (ix1 a) : EReal)) (fun a b => (x5 (ix2 a b) : EReal))
          (fun a => (x6 (ix1 a) : EReal)) r o := by
  rw [Read.val_main_v16_apply, Read.val_main_v13_apply, Read.val_main_v15_apply, Read.val_main_v14_apply]
  simp only [Read.val_main_v12_apply]
  -- the left operand is read at (r, k); the transposed weight at (k, o) is the weight at (o, k); the bias broadcast
  -- twice, read at (r, o), is the bias at o
  have hl : ∀ k : Fin 64, Read.lidx_main_v13 (ix2 r o) k = ix2 r k := fun k =>
    funext fun a => by match a with | ⟨0, _⟩ => rfl | ⟨1, _⟩ => rfl
  have hr : ∀ k : Fin 64, Read.idx_main_v12 (Read.ridx_main_v13 (ix2 r o) k) = ix2 o k := fun k =>
    funext fun a => by match a with | ⟨0, _⟩ => rfl | ⟨1, _⟩ => rfl
  have hb : Read.idx_main_v14 (Read.idx_main_v15 (ix2 r o)) = ix1 o :=
    funext fun a => by match a with | ⟨0, _⟩ => rfl
  simp only [hl, hr, hb, ref_hidden1]
  rfl

end Cert.ReferenceIdeal.IsMlp

end
-- ==== Proof.lean ====
/-
  A three-layer perceptron, relu (x · W0ᵀ + b0) ↦ relu (· W1ᵀ + b1) ↦ (· W2ᵀ + b2) over 2097152 rows of 32 features, computed
  by a kernel that packs four input rows into one row of 128 lanes and multiplies by 4-way block-diagonal weight
  matrices, against the plain array expression.

  The three frames. The kernel's program is forty host operations that build the packed operands, one pipelined
  region of 128 grid points, and one host reshape: it runs to its end without a fault at any float instance, and no
  operation or write-back touches an argument array (KernelRun.lean at the word level, KernelIdealRun.lean at the
  extended reals). The reference is host operations only: its run is read back operation by operation.

  The idealization rewrote no operation, so there is nothing to preserve beyond the program's own text.

  The equivalence on the extended reals. The kernel's result buffer ends holding, at row i and output o, the
  perceptron's result of the arguments (KernelValue.lean: every grid point writes back its block of one function of the
  whole packed array, by the packed-layers law of PackedAlgebra.lean — in a packed product every term that belongs to
  another original row is a product with zero, and x · 0 = 0 for every extended real x, so no finiteness is used). The
  reference's last stage read at (i, o) is the same function (RefIsMlp.lean). Both runs are stated with that one function
  of arguments that agree.
-/
import proofs.«419429_j84052509982983_3_alg».proof.Defs
import proofs.«419429_j84052509982983_3_alg».proof.Proof.Gen.Kernel
import proofs.«419429_j84052509982983_3_alg».proof.Proof.Gen.KernelIdeal
import proofs.«419429_j84052509982983_3_alg».proof.Proof.Gen.ReferenceIdeal
import proofs.«419429_j84052509982983_3_alg».proof.Proof.Gen.Pre_finite_inputs
import proofs.«419429_j84052509982983_3_alg».proof.Proof.Gen.ReferenceIdeal.Run
import proofs.«419429_j84052509982983_3_alg».proof.Proof.Gen.ReferenceIdeal.Read
import proofs.«419429_j84052509982983_3_alg».proof.Proof.KernelRun
import proofs.«419429_j84052509982983_3_alg».proof.Proof.KernelIdealRun
import proofs.«419429_j84052509982983_3_alg».proof.Proof.KernelValue
import proofs.«419429_j84052509982983_3_alg».proof.Proof.RefIsMlp
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level program runs, faults nowhere and leaves its seven arguments as launched. -/
theorem frame_kernel : Cert.frame_Kernel := fun m ρ _ => Cert.Kernel.Packed.frame (F := Bits) m ρ

/-- So does the idealized program. -/
theorem frame_kernelIdeal : Cert.frame_KernelIdeal := fun m ρ _ => Cert.KernelIdeal.Packed.frame (F := Ideal) m ρ

/-- The reference is host operations only: its read-back run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- On the extended reals both programs end with the perceptron's result of their (agreeing) arguments. -/
theorem algebraic : Cert.algebraic_KernelIdeal_ReferenceIdeal := by
  intro m ρ m' ρ' _ hagree
  refine ⟨fun c => (fun i => Cert.KernelIdeal.Result.mlp m c ⟨(i 0).val, idx2_lt0 i⟩ ⟨(i 1).val, idx2_lt1 i⟩ :
      Cert.KernelIdeal.S2097152x4.Idx → EReal), ?_, ?_⟩
  · -- the kernel: the result buffer bypasses the region and is written by the reshape after it; the arguments are kept
    refine (θ_run Cert.KernelIdeal.defs _ _).mono (fun r h c => ?_) (Cert.KernelIdeal.Packed.run_main (F := Ideal) m ρ)
    have k : ∀ b, Cert.KernelIdeal.Packed.IsArg b →
        r.2.mem ((c.tc : Thread Cert.KernelIdeal.nD Cert.KernelIdeal.τ).loc b) = m ((c.tc : Thread Cert.KernelIdeal.nD Cert.KernelIdeal.τ).loc b) :=
      fun b hb => ((h c).2 b (Cert.KernelIdeal.Packed.arg_rest b hb)).trans
        (Cert.KernelIdeal.Packed.W_arg m (Cert.KernelIdeal.Packed.dats m) c b hb)
    refine ⟨?_, k _ (.inl rfl), k _ (.inr (.inl rfl)), k _ (.inr (.inr (.inl rfl))), k _ (.inr (.inr (.inr (.inl rfl)))),
      k _ (.inr (.inr (.inr (.inr (.inl rfl))))), k _ (.inr (.inr (.inr (.inr (.inr (.inl rfl)))))),
      k _ (.inr (.inr (.inr (.inr (.inr (.inr rfl))))))⟩
    exact ((h c).2 Cert.KernelIdeal.main_v38 (Pipeline.mem_restRefs_of _ (by decide) (by decide))).trans
      (Cert.KernelIdeal.Result.out_eq m c)
  · -- the reference: its last stage at (i, o) is the same function, of arguments that agree with the kernel's
    refine (θ_run Cert.ReferenceIdeal.defs _ _).mono (fun r h c => ⟨(h c).1.trans ?_, (h c).2⟩)
      (Cert.ReferenceIdeal.Value.run (F := Ideal) m' ρ')
    rw [Cert.ReferenceIdeal.Read.val_main_v16_eq]
    funext i
    obtain ⟨a, b, rfl⟩ : ∃ (a : Fin 2097152) (b : Fin 4), i = ix2 a b := ⟨i 0, i 1, eq_ix2 i⟩
    rw [Cert.ReferenceIdeal.IsMlp.ref_result, (hagree c).1, (hagree c).2.1, (hagree c).2.2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
